-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4 : Shape := ⟨2, ![256, 4]⟩
abbrev S8192x2048 : Shape := ⟨2, ![8192, 2048]⟩
abbrev S_ : Shape := ⟨0, ![]⟩

class Facts : Prop where
  bcast_S_S256x4 : S_.BroadcastsInDim S256x4 (![] : Fin 0 → Fin S256x4.rank)
  reducesTo_S256x4_S_d0_1 : S256x4.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S256x4 .f32) (main_arg1 : IVec S8192x2048 32) : IVec S_ 1 :=
  let main_v0 : FVec F S256x4 .f32 := Host.absf main_arg0
  let main_cst : FVec F S_ .f32 := constant S_ .f32 0x7F800000#32
  let main_v1 : FVec F S256x4 .f32 := broadcastInDim S256x4 ![] bcast_S_S256x4 main_cst
  let main_v2 : IVec S256x4 1 := cmpf .olt main_v0 main_v1
  let main_c : IVec S_ 1 := constantI S_ 1 1#1
  let main_v3 : IVec S_ 1 := (fun x v => Host.reduce IntOp.andi x v reducesTo_S256x4_S_d0_1 h_S_) main_v2 main_c
  let main_c_0 : IVec S_ 32 := constantI S_ 32 0#32
  let main_v4 : IVec S8192x2048 32 := broadcastInDim S8192x2048 ![] bcast_S_S8192x2048 main_c_0
  let main_v5 : IVec S8192x2048 1 := cmpi .sge main_arg1 main_v4
  let main_c_1 : IVec S_ 32 := constantI S_ 32 256#32
  let main_v6 : IVec S8192x2048 32 := broadcastInDim S8192x2048 ![] bcast_S_S8192x2048 main_c_1
  let main_v7 : IVec S8192x2048 1 := cmpi .slt main_arg1 main_v6
  let main_v8 : IVec S8192x2048 1 := andi main_v5 main_v7
  let main_c_2 : IVec S_ 1 := constantI S_ 1 1#1
  let main_v9 : IVec S_ 1 := (fun x v => Host.reduce IntOp.andi x v reducesTo_S8192x2048_S_d0_1 h_S_) main_v8 main_c_2
  let main_v10 : IVec S_ 1 := andi main_v3 main_v9
  main_v10
-- ==== Kernel.lean ====
abbrev S256x4 : Shape := ⟨2, ![256, 4]⟩
abbrev S8192x2048 : Shape := ⟨2, ![8192, 2048]⟩
abbrev S256x12 : Shape := ⟨2, ![256, 12]⟩
abbrev S8192x2048x4 : Shape := ⟨3, ![8192, 2048, 4]⟩
abbrev S128x128 : Shape := ⟨2, ![128, 128]⟩
abbrev S128x128x4 : Shape := ⟨3, ![128, 128, 4]⟩
abbrev S16x128 : Shape := ⟨2, ![16, 128]⟩
abbrev S16x128x256 : Shape := ⟨3, ![16, 128, 256]⟩
abbrev S16x128x1 : Shape := ⟨3, ![16, 128, 1]⟩
abbrev S2048x256 : Shape := ⟨2, ![2048, 256]⟩
abbrev S2048x12 : Shape := ⟨2, ![2048, 12]⟩
abbrev S2048x4 : Shape := ⟨2, ![2048, 4]⟩
abbrev S16x128x4 : Shape := ⟨3, ![16, 128, 4]⟩
abbrev S8192x8192 : Shape := ⟨2, ![8192, 8192]⟩

abbrev nBuf : Space → Nat
  | .hbm => 12
  | .vmem => 5
  | .smem => 0
  | _ => 0

abbrev bufTy : (tb : Table) → Fin (tcTables nBuf tb) → BufTy
  | .hbm, ⟨0, _⟩ => ⟨S256x4, .f32⟩
  | .hbm, ⟨1, _⟩ => ⟨S8192x2048, .i32⟩
  | .hbm, ⟨2, _⟩ => ⟨S256x4, .bf16⟩
  | .hbm, ⟨3, _⟩ => ⟨S256x4, .f32⟩
  | .hbm, ⟨4, _⟩ => ⟨S256x4, .f32⟩
  | .hbm, ⟨5, _⟩ => ⟨S256x4, .bf16⟩
  | .hbm, ⟨6, _⟩ => ⟨S256x4, .f32⟩
  | .hbm, ⟨7, _⟩ => ⟨S256x4, .f32⟩
  | .hbm, ⟨8, _⟩ => ⟨S256x4, .bf16⟩
  | .hbm, ⟨9, _⟩ => ⟨S256x12, .bf16⟩
  | .hbm, ⟨10, _⟩ => ⟨S8192x2048x4, .f32⟩
  | .hbm, ⟨11, _⟩ => ⟨S8192x8192, .f32⟩
  | .local _ .vmem, ⟨0, _⟩ => ⟨S256x12, .bf16⟩
  | .local _ .vmem, ⟨1, _⟩ => ⟨S128x128, .i32⟩
  | .local _ .vmem, ⟨2, _⟩ => ⟨S128x128, .i32⟩
  | .local _ .vmem, ⟨3, _⟩ => ⟨S128x128x4, .f32⟩
  | .local _ .vmem, ⟨4, _⟩ => ⟨S128x128x4, .f32⟩
  | _, _ => ⟨S256x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 16], ![false, false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c16_i32 : BitVec 32 := 16#32
  let v3 : BitVec 32 := Scalar.muli arg5 c16_i32
  v3
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32 : BitVec 32 := 16#32
  let v3 : BitVec 32 := Scalar.muli arg5 c16_i32
  let v4 : BitVec 32 := v3
  let v5 : Index := Scalar.indexCast v4
  let c0_2 : Index := 0#32
  ![v5.toNat, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let c16_i32 : BitVec 32 := 16#32
  let v3 : BitVec 32 := Scalar.muli arg5 c16_i32
  let v4 : BitVec 32 := v3
  let v22 : Index := Scalar.indexCast v4
  let c0_3 : Index := 0#32
  let c0_4 : Index := 0#32
  ![v22.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S256x12 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  concatenates_S256x4_S256x4_S256x4_S256x12_d1 : Shape.Concatenates [S256x4, S256x4, S256x4] S256x12 1
  inb_S256x12_S256x12_0_0 : ∀ a, (![0, 0] : Fin 2 → Nat) a + S256x12.size a ≤ S256x12.size a
  h_S256x12 : 0 < S256x12.numel
  shapeCasts_S256x12_S256x12 : S256x12.ShapeCasts S256x12
  h_S16x128 : 0 < S16x128.numel
  iota_S16x128x256_d2_w32 : S16x128x256.Iotas .tc 32 [2]
  shapeCasts_S16x128_S16x128x1 : S16x128.ShapeCasts S16x128x1
  broadcasts_S16x128x1_S16x128x256 : S16x128x1.Broadcasts S16x128x256
  natLt_1_32 : 1 < 32
  shapeCasts_S16x128x256_S2048x256 : S16x128x256.ShapeCasts S2048x256
  slices_S2048x12_o0_0_S2048x4 : S2048x12.Slices ![0, 0] S2048x4
  slices_S2048x12_o0_4_S2048x4 : S2048x12.Slices ![0, 4] S2048x4
  slices_S2048x12_o0_8_S2048x4 : S2048x12.Slices ![0, 8] S2048x4
  shapeCasts_S2048x4_S16x128x4 : S2048x4.ShapeCasts S16x128x4
  h_S16x128x4 : 0 < S16x128x4.numel
  shapeCasts_S8192x2048x4_S8192x8192 : S8192x2048x4.ShapeCasts S8192x8192
  dot_S2048x256_S256x12_S2048x12_1_0_0_1_n_n_wf : DotDims.WF S2048x256 S256x12 S2048x12 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x128.size a ≤ S128x128.size a
  k0_off2_inb : ∀ k0_t1 : Fin k0_t1_loop.trips, ∀ a, (k0_off2 k0_t1) a + S16x128x4.size a ≤ S128x128x4.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x12.size a ≤ S256x12.size a
  hwx0_0 : ∀ i : grid0.Coords, EltTy.bits .bf16 = 32 ∨ (Rect.block (s := S256x12) S256x12.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S8192x2048.size a
  hwx0_1 : ∀ i : grid0.Coords, EltTy.bits .i32 = 32 ∨ (Rect.block (s := S8192x2048) S128x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128x4.size a ≤ S8192x2048x4.size a
  hwx0_2 : ∀ i : grid0.Coords, EltTy.bits .f32 = 32 ∨ (Rect.block (s := S8192x2048x4) S128x128x4.size (cc0_transform_2 i) (hinb0_2 i)).WholeWords (EltTy.packing .f32)

variable [Facts₀]

def dot_S2048x256_S256x12_S2048x12_1_0_0_1_n_n : DotDims S2048x256 S256x12 S2048x12 where
  lhsContracting := [1]
  rhsContracting := [0]
  lhsNonContracting := [0]
  rhsNonContracting := [1]
  lhsBatch := []
  rhsBatch := []
  wf := dot_S2048x256_S256x12_S2048x12_1_0_0_1_n_n_wf

abbrev win0_0 : Pipeline.Window sig grid0 :=
  Pipeline.Window.ofSpec (Memref.whole main_v7) S256x12.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x4 : Shape := ⟨2, ![256, 4]⟩
abbrev S8192x2048 : Shape := ⟨2, ![8192, 2048]⟩
abbrev S_ : Shape := ⟨0, ![]⟩
abbrev S8192x2048x1 : Shape := ⟨3, ![8192, 2048, 1]⟩
abbrev S1 : Shape := ⟨1, ![1]⟩
abbrev S1x1x1 : Shape := ⟨3, ![1, 1, 1]⟩
abbrev S8192x2048x4 : Shape := ⟨3, ![8192, 2048, 4]⟩
abbrev S8192x8192 : Shape := ⟨2, ![8192, 8192]⟩

abbrev nBuf : Space → Nat
  | .hbm => 26
  | .vmem => 0
  | .smem => 0
  | _ => 0

abbrev bufTy : (tb : Table) → Fin (tcTables nBuf tb) → BufTy
  | .hbm, ⟨0, _⟩ => ⟨S256x4, .f32⟩
  | .hbm, ⟨1, _⟩ => ⟨S8192x2048, .i32⟩
  | .hbm, ⟨2, _⟩ => ⟨S_, .i32⟩
  | .hbm, ⟨3, _⟩ => ⟨S8192x2048, .i32⟩
  | .hbm, ⟨4, _⟩ => ⟨S8192x2048, .i1⟩
  | .hbm, ⟨5, _⟩ => ⟨S_, .i32⟩
  | .hbm, ⟨6, _⟩ => ⟨S8192x2048, .i32⟩
  | .hbm, ⟨7, _⟩ => ⟨S8192x2048, .i32⟩
  | .hbm, ⟨8, _⟩ => ⟨S8192x2048, .i32⟩
  | .hbm, ⟨9, _⟩ => ⟨S8192x2048x1, .i32⟩
  | .hbm, ⟨10, _⟩ => ⟨S1, .i32⟩
  | .hbm, ⟨11, _⟩ => ⟨S_, .i32⟩
  | .hbm, ⟨12, _⟩ => ⟨S8192x2048x1, .i32⟩
  | .hbm, ⟨13, _⟩ => ⟨S8192x2048x1, .i1⟩
  | .hbm, ⟨14, _⟩ => ⟨S1x1x1, .i32⟩
  | .hbm, ⟨15, _⟩ => ⟨S8192x2048x1, .i32⟩
  | .hbm, ⟨16, _⟩ => ⟨S8192x2048x1, .i1⟩
  | .hbm, ⟨17, _⟩ => ⟨S8192x2048x1, .i1⟩
  | .hbm, ⟨18, _⟩ => ⟨S_, .i1⟩
  | .hbm, ⟨19, _⟩ => ⟨S8192x2048, .i1⟩
  | .hbm, ⟨20, _⟩ => ⟨S8192x2048x4, .f32⟩
  | .hbm, ⟨21, _⟩ => ⟨S8192x2048x4, .i1⟩
  | .hbm, ⟨22, _⟩ => ⟨S_, .f32⟩
  | .hbm, ⟨23, _⟩ => ⟨S8192x2048x4, .f32⟩
  | .hbm, ⟨24, _⟩ => ⟨S8192x2048x4, .f32⟩
  | .hbm, ⟨25, _⟩ => ⟨S8192x8192, .f32⟩
  | _, _ => ⟨S256x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  bcast_S8192x2048_S8192x2048x1_0_1 : S8192x2048.BroadcastsInDim S8192x2048x1 (![0, 1] : Fin 2 → Fin S8192x2048x1.rank)
  bcast_S_S8192x2048x1 : S_.BroadcastsInDim S8192x2048x1 (![] : Fin 0 → Fin S8192x2048x1.rank)
  bcast_S1_S1x1x1_2 : S1.BroadcastsInDim S1x1x1 (![2] : Fin 1 → Fin S1x1x1.rank)
  bcast_S1x1x1_S8192x2048x1_0_1_2 : S1x1x1.BroadcastsInDim S8192x2048x1 (![0, 1, 2] : Fin 3 → Fin S8192x2048x1.rank)
  reducesTo_S8192x2048x1_S8192x2048_d2 : S8192x2048x1.ReducesTo [2] S8192x2048
  h_S_ : 0 < S_.numel
  bcast_S8192x2048_S8192x2048x4_0_1 : S8192x2048.BroadcastsInDim S8192x2048x4 (![0, 1] : Fin 2 → Fin S8192x2048x4.rank)
  bcast_S_S8192x2048x4 : S_.BroadcastsInDim S8192x2048x4 (![] : Fin 0 → Fin S8192x2048x4.rank)
  shapeCasts_S8192x2048x4_S8192x8192 : S8192x2048x4.ShapeCasts S8192x8192
  gather_S256x4_S8192x2048x1_S8192x2048x4_2_0_n_n_0_2_14_wf : GatherDims.WF S256x4 S8192x2048x1 S8192x2048x4 [2] [0] [] [0] [] 2 ![1, 4]

variable [Facts₀]

def gather_S256x4_S8192x2048x1_S8192x2048x4_2_0_n_n_0_2_14 : GatherDims S256x4 S8192x2048x1 S8192x2048x4 where
  offsetDims := [2]
  collapsedSliceDims := [0]
  operandBatchingDims := []
  startIndicesBatchingDims := []
  startIndexMap := [0]
  indexVectorDim := 2
  sliceSizes := ![1, 4]
  wf := gather_S256x4_S8192x2048x1_S8192x2048x4_2_0_n_n_0_2_14_wf

class Facts : Prop extends Facts₀ where

variable [Facts]
-- ==== Proof.KKit.lean ====
/-
  The frame of the program around its one kernel region, up to the kernel's body. @main is eight host lines that build
  the twelve-column table from the codebook, the region, and one host line that merges the result's last two axes.
  Stated here, for any float family: the contents every buffer has when the region is entered (the host lines before it
  applied to the launch contents); that neither argument is written by any host line, before or after; each window's
  block at a grid point read off its array as the region finds it; that an input window's staging buffer holds that block
  at every point, fetched there or not; and that a run of the whole program to the launch theorem's post is the frame
  claim's post — the codebook is a buffer no window stages and ends as launched, the assignments are an input
  window's array and end as the region found them.
-/
import proofs.«429566_j53017076302344_3_alg».proof.Proof.Gen.Kernel.Launch
import proofs.«429566_j53017076302344_3_alg».proof.Proof.Gen.Kernel.Skeleton
import proofs.«429566_j53017076302344_3_alg».proof.Proof.Gen.Kernel.Loops
import proofs.«429566_j53017076302344_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents after the eight host
    lines before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it: it reduces to the region
    continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its one result buffer is the merged matrix, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes the codebook: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))

/-- Nor the assignments. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))

/-- The host line after the region does not write the codebook, and the codebook is no window's array: it ends as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The table's staging buffer holds the table at every point — it is fetched at the first point only, and its block
    index never moves — for any proof data whose array is the region-entry contents and whose body leaves the block in
    place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The assignments' staging buffer holds the point's block of the assignments at every point, likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the launch
    theorem's post, read at the two argument arrays, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
    ((h c).1 1).trans (((dats 0 c).arrAt_in 1 rfl _).trans ((hA c 1).trans (V_main_arg1 m c)))⟩) h

/-! ## The staging memrefs the body is called with -/

/-- One staging buffer of the output window, through which its contents are stated (the choice does not matter). -/
abbrev VO0_2 : View sig .tc .vmem S128x128x4 .f32 := (Memref.whole cc0_stg2_0 : Memref sig .tc .vmem S128x128x4 .f32).view
/-- Each window's current staging memref at point `t`, spelled as the pipeline passes it, and its wholeness. -/
abbrev ms0_0 (t : Fin cfg0.N) : Memref sig .tc .vmem S256x12 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128x4 .f32 := win0_2.stage (cfg0.slots t 2)
abbrev hs0_2 (t : Fin cfg0.N) : (ms0_2 t).IsWhole := hstage0_2 ((cfg0.slots t 2).cast nbuf0_2)

end Cert.Kernel.Frame

end
-- ==== Proof.KRun.lean ====
/-
  The kernel's body as one triple, for any float family: on whole staging memrefs — the table's and the assignments' at
  their contents, the output's at anything — the body runs to its end holding the two inputs as they were and the
  output's buffer with a list of pieces written over what it held. The body loads the table once and then, in a counted
  loop of eight trips, loads sixteen rows of assignments, computes their chunk and stores it at the same sixteen rows of
  the output; the loop is gone through by its invariant, once, at a symbolic trip. The pieces are the witness the run
  finds.
-/
import proofs.«429566_j53017076302344_3_alg».proof.Proof.KKit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref, as pieces (last first), with the proof that the body
    runs to the continuation holding the inputs as they were and the output's buffer with those pieces written. -/
noncomputable def kernelRun0_A (c : Dev nD) (i : grid0.Coords) (arg2 : Memref sig .tc .vmem S256x12 .bf16) (harg2 : arg2.IsWhole) (arg3 : Memref sig .tc .vmem S128x128 .i32) (harg3 : arg3.IsWhole) (arg4 : Memref sig .tc .vmem S128x128x4 .f32) (harg4 : arg4.IsWhole)
    (x0 : Vec F S256x12 .bf16) (x1 : Vec F S128x128 .i32) :
    { L2 : List (View.Piece (Elt F) S128x128x4 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__gather_kernel i arg2 harg2 arg3 harg3 arg4 harg4) K } := by
  refine ⟨?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Frame

end
-- ==== Proof.KFrame.lean ====
/-
  The frame of the program, for any float family: what the output's staging buffer holds after the body at each grid
  point (the run's pieces read back: they tile the block, eight stores of sixteen rows each, so they cover it), the
  pipeline's proof data (every array as the region finds it; after the body each input's buffer at its block and the
  output's at what the run left; nothing owed, full shares), the body obligation at a generic point, the run of the whole
  program by the launch theorem for a region followed by host lines, and the frame claim: both arguments end unchanged.
-/
import proofs.«429566_j53017076302344_3_alg».proof.Proof.KRun

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output tile its block — eight stores of sixteen rows — so they cover it. -/
theorem cover0_A_2 (c : Dev nD) (i : grid0.Coords) (arg2 : Memref sig .tc .vmem S256x12 .bf16) (harg2 : arg2.IsWhole) (arg3 : Memref sig .tc .vmem S128x128 .i32) (harg3 : arg3.IsWhole) (arg4 : Memref sig .tc .vmem S128x128x4 .f32) (harg4 : arg4.IsWhole)
    (x0 : Vec F S256x12 .bf16) (x1 : Vec F S128x128 .i32) (y : S128x128x4.Idx) :
    ∃ pc ∈ (kernelRun0_A c i arg2 harg2 arg3 harg3 arg4 harg4 x0 x1).1, y ∈ pc.1.set :=
  View.cover_of_tiledL (kernelRun0_A c i arg2 harg2 arg3 harg3 arg4 harg4 x0 x1).1 S16x128x4.size (by sl_kernel_rfl) y

/-- What the run leaves in the output's staging buffer: its pieces read back over junk. -/
def out0_A_2 (c : Dev nD) (i : grid0.Coords) (arg2 : Memref sig .tc .vmem S256x12 .bf16) (harg2 : arg2.IsWhole) (arg3 : Memref sig .tc .vmem S128x128 .i32) (harg3 : arg3.IsWhole) (arg4 : Memref sig .tc .vmem S128x128x4 .f32) (harg4 : arg4.IsWhole)
    (x0 : Vec F S256x12 .bf16) (x1 : Vec F S128x128 .i32) : Vec F S128x128x4 .f32 :=
  VO0_2.read (Elt F) (VO0_2.writes (Elt F) VO0_2.junk (kernelRun0_A c i arg2 harg2 arg3 harg3 arg4 harg4 x0 x1).1)

/-! ## What the output holds after each point -/

/-- What the output's staging buffer holds after the body at point `t`: the run's contents at the point's memrefs and
    input blocks. -/
def outsAt0 (c : Dev nD) (t : Fin cfg0.N) : Vec F S128x128x4 .f32 :=
  out0_A_2 c (grid0.coords t) (ms0_0 t) (hs0_0 t) (ms0_1 t) (hs0_1 t) (ms0_2 t) (hs0_2 t) (iblk m c 0 t) (iblk m c 1 t)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer at the host
    line after the region applied to what the region left. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frame

end
-- ==== Proof.KIKit.lean ====
/-
  The frame of the program around its one kernel region, up to the kernel's body. @main is eight host lines that build
  the twelve-column table from the codebook, the region, and one host line that merges the result's last two axes.
  Stated here, for any float family: the contents every buffer has when the region is entered (the host lines before it
  applied to the launch contents); that neither argument is written by any host line, before or after; each window's
  block at a grid point read off its array as the region finds it; that an input window's staging buffer holds that block
  at every point, fetched there or not; and that a run of the whole program to the launch theorem's post is the frame
  claim's post — the codebook is a buffer no window stages and ends as launched, the assignments are an input
  window's array and end as the region found them.
-/
import proofs.«429566_j53017076302344_3_alg».proof.Proof.Gen.KernelIdeal.Launch
import proofs.«429566_j53017076302344_3_alg».proof.Proof.Gen.KernelIdeal.Skeleton
import proofs.«429566_j53017076302344_3_alg».proof.Proof.Gen.KernelIdeal.Loops
import proofs.«429566_j53017076302344_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents after the eight host
    lines before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it: it reduces to the region
    continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its one result buffer is the merged matrix, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes the codebook: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))

/-- Nor the assignments. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))

/-- The host line after the region does not write the codebook, and the codebook is no window's array: it ends as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The table's staging buffer holds the table at every point — it is fetched at the first point only, and its block
    index never moves — for any proof data whose array is the region-entry contents and whose body leaves the block in
    place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The assignments' staging buffer holds the point's block of the assignments at every point, likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the launch
    theorem's post, read at the two argument arrays, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
    ((h c).1 1).trans (((dats 0 c).arrAt_in 1 rfl _).trans ((hA c 1).trans (V_main_arg1 m c)))⟩) h

/-! ## The staging memrefs the body is called with -/

/-- One staging buffer of the output window, through which its contents are stated (the choice does not matter). -/
abbrev VO0_2 : View sig .tc .vmem S128x128x4 .f32 := (Memref.whole cc0_stg2_0 : Memref sig .tc .vmem S128x128x4 .f32).view
/-- Each window's current staging memref at point `t`, spelled as the pipeline passes it, and its wholeness. -/
abbrev ms0_0 (t : Fin cfg0.N) : Memref sig .tc .vmem S256x12 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128x4 .f32 := win0_2.stage (cfg0.slots t 2)
abbrev hs0_2 (t : Fin cfg0.N) : (ms0_2 t).IsWhole := hstage0_2 ((cfg0.slots t 2).cast nbuf0_2)

end Cert.KernelIdeal.Frame

end
-- ==== Proof.KIRun.lean ====
/-
  The kernel's body as one triple, for any float family: on whole staging memrefs — the table's and the assignments' at
  their contents, the output's at anything — the body runs to its end holding the two inputs as they were and the
  output's buffer with a list of pieces written over what it held. The body loads the table once and then, in a counted
  loop of eight trips, loads sixteen rows of assignments, computes their chunk and stores it at the same sixteen rows of
  the output; the loop is gone through by its invariant, once, at a symbolic trip. The pieces are the witness the run
  finds.
-/
import proofs.«429566_j53017076302344_3_alg».proof.Proof.KIKit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref, as pieces (last first), with the proof that the body
    runs to the continuation holding the inputs as they were and the output's buffer with those pieces written. -/
noncomputable def kernelRun0_A (c : Dev nD) (i : grid0.Coords) (arg2 : Memref sig .tc .vmem S256x12 .bf16) (harg2 : arg2.IsWhole) (arg3 : Memref sig .tc .vmem S128x128 .i32) (harg3 : arg3.IsWhole) (arg4 : Memref sig .tc .vmem S128x128x4 .f32) (harg4 : arg4.IsWhole)
    (x0 : Vec F S256x12 .bf16) (x1 : Vec F S128x128 .i32) :
    { L2 : List (View.Piece (Elt F) S128x128x4 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__gather_kernel i arg2 harg2 arg3 harg3 arg4 harg4) K } := by
  refine ⟨?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Frame

end
-- ==== Proof.KIFrame.lean ====
/-
  The frame of the program, for any float family: what the output's staging buffer holds after the body at each grid
  point (the run's pieces read back: they tile the block, eight stores of sixteen rows each, so they cover it), the
  pipeline's proof data (every array as the region finds it; after the body each input's buffer at its block and the
  output's at what the run left; nothing owed, full shares), the body obligation at a generic point, the run of the whole
  program by the launch theorem for a region followed by host lines, and the frame claim: both arguments end unchanged.
-/
import proofs.«429566_j53017076302344_3_alg».proof.Proof.KIRun

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output tile its block — eight stores of sixteen rows — so they cover it. -/
theorem cover0_A_2 (c : Dev nD) (i : grid0.Coords) (arg2 : Memref sig .tc .vmem S256x12 .bf16) (harg2 : arg2.IsWhole) (arg3 : Memref sig .tc .vmem S128x128 .i32) (harg3 : arg3.IsWhole) (arg4 : Memref sig .tc .vmem S128x128x4 .f32) (harg4 : arg4.IsWhole)
    (x0 : Vec F S256x12 .bf16) (x1 : Vec F S128x128 .i32) (y : S128x128x4.Idx) :
    ∃ pc ∈ (kernelRun0_A c i arg2 harg2 arg3 harg3 arg4 harg4 x0 x1).1, y ∈ pc.1.set :=
  View.cover_of_tiledL (kernelRun0_A c i arg2 harg2 arg3 harg3 arg4 harg4 x0 x1).1 S16x128x4.size (by sl_kernel_rfl) y

/-- What the run leaves in the output's staging buffer: its pieces read back over junk. -/
def out0_A_2 (c : Dev nD) (i : grid0.Coords) (arg2 : Memref sig .tc .vmem S256x12 .bf16) (harg2 : arg2.IsWhole) (arg3 : Memref sig .tc .vmem S128x128 .i32) (harg3 : arg3.IsWhole) (arg4 : Memref sig .tc .vmem S128x128x4 .f32) (harg4 : arg4.IsWhole)
    (x0 : Vec F S256x12 .bf16) (x1 : Vec F S128x128 .i32) : Vec F S128x128x4 .f32 :=
  VO0_2.read (Elt F) (VO0_2.writes (Elt F) VO0_2.junk (kernelRun0_A c i arg2 harg2 arg3 harg3 arg4 harg4 x0 x1).1)

/-! ## What the output holds after each point -/

/-- What the output's staging buffer holds after the body at point `t`: the run's contents at the point's memrefs and
    input blocks. -/
def outsAt0 (c : Dev nD) (t : Fin cfg0.N) : Vec F S128x128x4 .f32 :=
  out0_A_2 c (grid0.coords t) (ms0_0 t) (hs0_0 t) (ms0_1 t) (hs0_1 t) (ms0_2 t) (hs0_2 t) (iblk m c 0 t) (iblk m c 1 t)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer at the host
    line after the region applied to what the region left. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frame

end
-- ==== Proof.Spec.lean ====
/-
  The specification both programs are compared against: the codebook lookup.

  `x` is the codebook, 256 rows of 4 components; `a` assigns to each position (r, q) of an 8192 × 2048 grid a row
  number. The looked-up array holds at (r, q, d) component `d` of row `a (r, q)`; merged row-major over its last two
  axes it is the 8192 × 8192 matrix whose entry (r, j) is component `j % 4` of row `a (r, j / 4)`.
  The row number is read modulo 256, which is the identity on the row numbers that are in range and keeps the
  function total; the two hypotheses under which the programs agree with it are stated beside it.
-/
import Idealize.ShloMosaic.PureOps.Ideal
import Idealize.ShloMosaic.Lib.ValueIdx

noncomputable section

namespace Cert.Lookup

open Idealize.ShloMosaic Idealize.ShloMosaic.ValueIdx

abbrev S256x4 : Shape := ⟨2, ![256, 4]⟩
abbrev S8192x2048 : Shape := ⟨2, ![8192, 2048]⟩
abbrev S8192x2048x4 : Shape := ⟨3, ![8192, 2048, 4]⟩
abbrev S8192x8192 : Shape := ⟨2, ![8192, 8192]⟩

/-- Every component of the codebook is a real number (neither infinity). -/
def Finite (x : FVec Ideal S256x4 .f32) : Prop := ∀ i, ∃ r : ℝ, x i = (r : EReal)

/-- Every assignment is a row number of the codebook: as a signed word it lies in [0, 256), which for a 32-bit
    word is the same as its unsigned value being below 256. -/
def InRange (a : IVec S8192x2048 32) : Prop := ∀ i, (a i).toNat < 256

/-- The codebook row that position (r, q) selects. -/
def row (a : IVec S8192x2048 32) (r : Fin 8192) (q : Fin 2048) : Fin 256 :=
  ⟨(a (ix2 r q)).toNat % 256, Nat.mod_lt _ (by decide)⟩

theorem row_val_of_inRange {a : IVec S8192x2048 32} (ha : InRange a) (r : Fin 8192) (q : Fin 2048) :
    (row a r q).val = (a (ix2 r q)).toNat := Nat.mod_eq_of_lt (ha _)

/-- The looked-up array: at (r, q, d), component `d` of the row that (r, q) selects. -/
def G3 (x : FVec Ideal S256x4 .f32) (a : IVec S8192x2048 32) : FVec Ideal S8192x2048x4 .f32 :=
  fun j => x (ix2 (row a (j 0) (j 1)) (j 2))

/-- The same, its last two axes merged row-major: entry (r, j) is component `j % 4` of the row (r, j / 4) selects. -/
def G (x : FVec Ideal S256x4 .f32) (a : IVec S8192x2048 32) : FVec Ideal S8192x8192 .f32 :=
  fun i => x (ix2 (row a (i 0) ⟨(i 1).val / 4, by have h : (i 1).val < 8192 := idx2_lt1 i; omega⟩) ⟨(i 1).val % 4, Nat.mod_lt _ (by decide)⟩)

end Cert.Lookup

end
-- ==== Proof.Payload.lean ====
/-
  The kernel's arithmetic, read at an index. One stored chunk holds at (r, q, d) the sum of three columns, d, d + 4
  and d + 8, of the row of the twelve-column table that the chunk's assignment at (r, q) names: the one-hot row times
  the table is that row, a product with zero being zero and a product with one the factor.
-/
import proofs.«429566_j53017076302344_3_alg».proof.Proof.Gen.KernelIdeal.Skeleton
import proofs.«429566_j53017076302344_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open Cert.KernelIdeal.Facts₀ Cert.KernelIdeal.Facts

variable [Cert.KernelIdeal.Facts]

/-- The word test behind one entry of the one-hot matrix: the equality bit, widened and converted, is 1 on the
    word's own value and 0 elsewhere. -/
private theorem hot_word (w : BitVec 32) (k : Nat) (hk : k < 256) :
    (FloatOps.sitofp (F := Ideal) .f32 ((IntOp.cmpi .eq w (BitVec.ofNat 32 k)).setWidth 32) : EReal)
      = if w.toNat = k then 1 else 0 := by
  by_cases hw : w.toNat = k
  · have e : w = BitVec.ofNat 32 k := by
      apply BitVec.eq_of_toNat_eq
      rw [BitVec.toNat_ofNat, hw]
      omega
    rw [if_pos hw, e]
    have : IntOp.cmpi .eq (BitVec.ofNat 32 k) (BitVec.ofNat 32 k) = 1#1 := by
      simp [IntOp.cmpi]
    rw [this]
    show (((BitVec.setWidth 32 1#1).toInt : ℝ) : EReal) = 1
    have : (BitVec.setWidth 32 1#1).toInt = 1 := by decide
    rw [this]
    simp
  · have e : ¬ w = BitVec.ofNat 32 k := by
      intro e
      apply hw
      rw [e, BitVec.toNat_ofNat]
      omega
    rw [if_neg hw]
    have hb : (w == BitVec.ofNat 32 k) = false := beq_eq_false_iff_ne.mpr e
    have : IntOp.cmpi .eq w (BitVec.ofNat 32 k) = 0#1 := by
      unfold IntOp.cmpi
      show BitVec.ofBool (w == BitVec.ofNat 32 k) = 0#1
      rw [hb]
      rfl
    rw [this]
    show (((BitVec.setWidth 32 0#1).toInt : ℝ) : EReal) = 0
    have : (BitVec.setWidth 32 0#1).toInt = 0 := by decide
    rw [this]
    simp

/-- One entry of the one-hot matrix: at row 128 r + q and column k it is 1 when the assignment word at (r, q) has
    value k, and 0 otherwise. -/
private theorem hot_apply (v6 : IVec S16x128 32) (h1 : S16x128.ShapeCasts S16x128x1) (h2 : S16x128x1.Broadcasts S16x128x256)
    (h3 : S16x128x256.Iotas .tc 32 [2]) (h4 : 1 < 32) (h5 : FTy.bits .bf16 < FTy.bits .f32)
    (h6 : S16x128x256.ShapeCasts S2048x256) (r : Fin 16) (q : Fin 128) (k : Fin 256) :
    shapeCast S2048x256
        (truncf (F := Ideal) .bf16
          (sitofp (F := Ideal) .f32
            (extui 32 (cmpi .eq (broadcastTo S16x128x256 (shapeCast S16x128x1 v6 h1) h2) (iota .tc S16x128x256 32 [2] h3)) h4))
          h5)
        h6 (ix2 (⟨128 * r.val + q.val, by omega⟩ : Fin 2048) k)
      = if (v6 (ix2 r q)).toNat = k.val then 1 else 0 := by
  refine (shapeCast_apply _ h6 (ix2 (⟨128 * r.val + q.val, by omega⟩ : Fin 2048) k) (ix3 r q k) ?_).trans ?_
  · rw [Shape.rowMajor_val_three, Shape.rowMajor_val_two]
    show (r.val * 128 + q.val) * 256 + k.val = (128 * r.val + q.val) * 256 + k.val
    omega
  · show (FloatOps.sitofp (F := Ideal) .f32
        ((IntOp.cmpi .eq (broadcastTo S16x128x256 (shapeCast S16x128x1 v6 h1) h2 (ix3 r q k))
          (iota .tc S16x128x256 32 [2] h3 (ix3 r q k))).setWidth 32) : EReal) = _
    have eb : broadcastTo S16x128x256 (shapeCast S16x128x1 v6 h1) h2 (ix3 r q k) = v6 (ix2 r q) := by
      refine (broadcastTo_apply _ h2 (ix3 r q k) (ix3 r q (0 : Fin 1)) fun ax => ?_).trans ?_
      · match ax with
        | ⟨0, _⟩ => rfl
        | ⟨1, _⟩ => rfl
        | ⟨2, _⟩ => rfl
      · refine shapeCast_apply v6 h1 (ix3 r q (0 : Fin 1)) (ix2 r q) ?_
        rw [Shape.rowMajor_val_three, Shape.rowMajor_val_two]
        show r.val * 128 + q.val = (r.val * 128 + q.val) * 1 + 0
        omega
    have ei : iota .tc S16x128x256 32 [2] h3 (ix3 r q k) = BitVec.ofNat 32 k.val :=
      iota_single_apply .tc S16x128x256 32 2 h3 (ix3 r q k)
    rw [eb, ei]
    exact hot_word _ _ k.isLt

/-! The product's operand indices, axis by axis: the left operand reads the result's row and the contracted
    position, the right operand the contracted position and the result's column. -/

private theorem dot_lhs0 (j : S2048x12.Idx) (k : dot_S2048x256_S256x12_S2048x12_1_0_0_1_n_n.contr.Idx) :
    (dot_S2048x256_S256x12_S2048x12_1_0_0_1_n_n.lhsIdx j k 0).val = (j 0).val := by
  simp [DotDims.lhsIdx, dot_S2048x256_S256x12_S2048x12_1_0_0_1_n_n]; rfl

private theorem dot_lhs1 (j : S2048x12.Idx) (k : dot_S2048x256_S256x12_S2048x12_1_0_0_1_n_n.contr.Idx) :
    (dot_S2048x256_S256x12_S2048x12_1_0_0_1_n_n.lhsIdx j k 1).val = (k ⟨0, by decide⟩).val :=
  DotDims.lhsIdx_val_of_single dot_S2048x256_S256x12_S2048x12_1_0_0_1_n_n rfl j k

private theorem dot_rhs0 (j : S2048x12.Idx) (k : dot_S2048x256_S256x12_S2048x12_1_0_0_1_n_n.contr.Idx) :
    (dot_S2048x256_S256x12_S2048x12_1_0_0_1_n_n.rhsIdx j k 0).val = (k ⟨0, by decide⟩).val :=
  DotDims.rhsIdx_val_of_single dot_S2048x256_S256x12_S2048x12_1_0_0_1_n_n rfl j k

private theorem dot_rhs1 (j : S2048x12.Idx) (k : dot_S2048x256_S256x12_S2048x12_1_0_0_1_n_n.contr.Idx) :
    (dot_S2048x256_S256x12_S2048x12_1_0_0_1_n_n.rhsIdx j k 1).val = (j 1).val := by
  simp [DotDims.rhsIdx, dot_S2048x256_S256x12_S2048x12_1_0_0_1_n_n]; rfl

/-- The product into the zero accumulator, read at (p, n): the sum over the contracted coordinate of the entries'
    products. -/
private theorem prod_apply (A : FVec Ideal S2048x256 .bf16) (B : FVec Ideal S256x12 .bf16) (p : Fin 2048) (n : Fin 12) :
    matmul (F := Ideal) dot_S2048x256_S256x12_S2048x12_1_0_0_1_n_n none A B (constant (F := Ideal) S2048x12 .f32 0x00000000#32)
        (ix2 p n)
      = ∑ k : Fin 256, A (ix2 p k) * B (ix2 k n) := by
  show FloatOps.matmul dot_S2048x256_S256x12_S2048x12_1_0_0_1_n_n none A B (constant (F := Ideal) S2048x12 .f32 0x00000000#32)
      (ix2 p n) = _
  rw [Ideal.matmul_constant_zero_apply,
    ← Equiv.sum_comp (contrEquiv1 dot_S2048x256_S256x12_S2048x12_1_0_0_1_n_n 256 rfl rfl).symm]
  refine Finset.sum_congr rfl fun c _ => ?_
  have hc := contrEquiv1_symm_val dot_S2048x256_S256x12_S2048x12_1_0_0_1_n_n 256 rfl rfl c
  have l : dot_S2048x256_S256x12_S2048x12_1_0_0_1_n_n.lhsIdx (ix2 p n)
      ((contrEquiv1 dot_S2048x256_S256x12_S2048x12_1_0_0_1_n_n 256 rfl rfl).symm c) = ix2 p c := by
    funext ax; apply Fin.ext
    match ax with
    | ⟨0, _⟩ => exact dot_lhs0 _ _
    | ⟨1, _⟩ => exact (dot_lhs1 _ _).trans hc
  have r : dot_S2048x256_S256x12_S2048x12_1_0_0_1_n_n.rhsIdx (ix2 p n)
      ((contrEquiv1 dot_S2048x256_S256x12_S2048x12_1_0_0_1_n_n 256 rfl rfl).symm c) = ix2 c n := by
    funext ax; apply Fin.ext
    match ax with
    | ⟨0, _⟩ => exact (dot_rhs0 _ _).trans hc
    | ⟨1, _⟩ => exact dot_rhs1 _ _
  rw [l, r]

/-- The product the kernel forms: the one-hot matrix of the chunk's assignments times the table. -/
private def prod (v0 : Vec Ideal S256x12 .bf16) (v6 : Vec Ideal S16x128 .i32) : FVec Ideal S2048x12 .f32 :=
  matmul (F := Ideal) dot_S2048x256_S256x12_S2048x12_1_0_0_1_n_n none
    (shapeCast S2048x256
      (truncf (F := Ideal) .bf16
        (sitofp (F := Ideal) .f32
          (extui 32
            (cmpi .eq
              (broadcastTo S16x128x256 (shapeCast S16x128x1 v6 Gen.shapeCasts_S16x128_S16x128x1)
                Gen.broadcasts_S16x128x1_S16x128x256)
              (iota .tc S16x128x256 32 [2] Gen.iota_S16x128x256_d2_w32))
            Gen.natLt_1_32))
        Gen.bitsLt_bf16_f32)
      Gen.shapeCasts_S16x128x256_S2048x256)
    (shapeCast S256x12 v0 Gen.shapeCasts_S256x12_S256x12 : FVec Ideal S256x12 .bf16)
    (constant (F := Ideal) S2048x12 .f32 0x00000000#32)

/-- Row 128 r + q of the product is the table's row that the assignment at (r, q) names: the sum over the
    contracted coordinate has one term that is not zero, and its factor from the one-hot matrix is one. -/
private theorem prod_row (v0 : Vec Ideal S256x12 .bf16) (v6 : Vec Ideal S16x128 .i32) (r : Fin 16) (q : Fin 128)
    (n : Fin 12) (h : (v6 (ix2 r q)).toNat < 256) :
    prod v0 v6 (ix2 (⟨128 * r.val + q.val, by omega⟩ : Fin 2048) n) = v0 (ix2 ⟨(v6 (ix2 r q)).toNat, h⟩ n) := by
  unfold prod
  rw [prod_apply, Finset.sum_eq_single (⟨(v6 (ix2 r q)).toNat, h⟩ : Fin 256)]
  · rw [hot_apply, if_pos rfl, one_mul]
    exact shapeCast_apply v0 _ _ _ rfl
  · intro k _ hk
    rw [hot_apply, if_neg (fun e => hk (Fin.ext e.symm)), zero_mul]
  · intro hn
    exact absurd (Finset.mem_univ _) hn

/-- One stored chunk at an index: three columns of the table's row that the assignment names. -/
theorem pay_apply (v0 : Vec Ideal S256x12 .bf16) (v6 : Vec Ideal S16x128 .i32) (r : Fin 16) (q : Fin 128) (d : Fin 4)
    (h : (v6 (ix2 r q)).toNat < 256) :
    k0_pay1 (F := Ideal) v0 v6 (ix3 r q d)
      = v0 (ix2 ⟨(v6 (ix2 r q)).toNat, h⟩ ⟨d.val, by omega⟩) + v0 (ix2 ⟨(v6 (ix2 r q)).toNat, h⟩ ⟨d.val + 4, by omega⟩)
        + v0 (ix2 ⟨(v6 (ix2 r q)).toNat, h⟩ ⟨d.val + 8, by omega⟩) := by
  have e : k0_pay1 (F := Ideal) v0 v6
      = shapeCast S16x128x4
          (addf
            (addf (extractStridedSlice S2048x4 ![0, 0] (prod v0 v6) Gen.slices_S2048x12_o0_0_S2048x4)
              (extractStridedSlice S2048x4 ![0, 4] (prod v0 v6) Gen.slices_S2048x12_o0_4_S2048x4))
            (extractStridedSlice S2048x4 ![0, 8] (prod v0 v6) Gen.slices_S2048x12_o0_8_S2048x4))
          Gen.shapeCasts_S2048x4_S16x128x4 := rfl
  rw [e]
  refine (shapeCast_apply _ _ (ix3 r q d) (ix2 (⟨128 * r.val + q.val, by omega⟩ : Fin 2048) d) ?_).trans ?_
  · rw [Shape.rowMajor_val_two, Shape.rowMajor_val_three]
    show (128 * r.val + q.val) * 4 + d.val = (r.val * 128 + q.val) * 4 + d.val
    omega
  · show extractStridedSlice S2048x4 ![0, 0] (prod v0 v6) Gen.slices_S2048x12_o0_0_S2048x4
            (ix2 (⟨128 * r.val + q.val, by omega⟩ : Fin 2048) d)
          + extractStridedSlice S2048x4 ![0, 4] (prod v0 v6) Gen.slices_S2048x12_o0_4_S2048x4
            (ix2 (⟨128 * r.val + q.val, by omega⟩ : Fin 2048) d)
          + extractStridedSlice S2048x4 ![0, 8] (prod v0 v6) Gen.slices_S2048x12_o0_8_S2048x4
            (ix2 (⟨128 * r.val + q.val, by omega⟩ : Fin 2048) d) = _
    rw [slice2_axis1_apply 0 (prod v0 v6) Gen.slices_S2048x12_o0_0_S2048x4 _ d (⟨d.val, by omega⟩ : Fin 12)
        (Nat.zero_add _).symm,
      slice2_axis1_apply 4 (prod v0 v6) Gen.slices_S2048x12_o0_4_S2048x4 _ d (⟨d.val + 4, by omega⟩ : Fin 12)
        (Nat.add_comm _ _),
      slice2_axis1_apply 8 (prod v0 v6) Gen.slices_S2048x12_o0_8_S2048x4 _ d (⟨d.val + 8, by omega⟩ : Fin 12)
        (Nat.add_comm _ _),
      prod_row v0 v6 r q _ h, prod_row v0 v6 r q _ h, prod_row v0 v6 r q _ h]

end Cert.KernelIdeal.Hand

end
-- ==== Proof.KIValueBlock.lean ====
/-
  What the kernel leaves in one output block, at the extended reals. The body's loop stores, trip by trip, sixteen rows
  of the block: the chunk computed from the table and from the same sixteen rows of the point's block of assignments.
  The eight trips' stores tile the block, so the block read back is one function of the table and the assignments'
  block: at (r, q, d) the sum of columns d, d + 4 and d + 8 of the table's row that the assignment at (r, q) names.
-/
import proofs.«429566_j53017076302344_3_alg».proof.Proof.KIFrame
import proofs.«429566_j53017076302344_3_alg».proof.Proof.Payload
import Idealize.ShloMosaic.Lib.Pipeline.Value

set_option maxRecDepth 16384

noncomputable section

namespace Cert.KernelIdeal.Hand

open Cert.KernelIdeal Cert.KernelIdeal.Gen Cert.KernelIdeal.Frame
open Idealize.ShloMosaic Idealize.ShloMosaic.TcCoe Idealize.ShloMosaic.ValueIdx Idealize.SL.Sem

/-- The table's row that position (r, q) of a block of assignments names (read modulo 256, the identity on a row
    number in range). -/
def blockRow (x1 : Vec Ideal S128x128 .i32) (r q : Fin 128) : Fin 256 :=
  ⟨(x1 (ix2 r q)).toNat % 256, Nat.mod_lt _ (by decide)⟩

/-- One output block as a function of the table and the point's block of assignments. -/
def blockOf (x0 : Vec Ideal S256x12 .bf16) (x1 : Vec Ideal S128x128 .i32) : Vec Ideal S128x128x4 .f32 :=
  fun y => x0 (ix2 (blockRow x1 (y 0) (y 1)) ⟨(y 2).val, by have h : (y 2).val < 4 := (y 2).isLt; omega⟩)
    + x0 (ix2 (blockRow x1 (y 0) (y 1)) ⟨(y 2).val + 4, by have h : (y 2).val < 4 := (y 2).isLt; omega⟩)
    + x0 (ix2 (blockRow x1 (y 0) (y 1)) ⟨(y 2).val + 8, by have h : (y 2).val < 4 := (y 2).isLt; omega⟩)

/-- One trip of the loop stores one piece: the chunk computed from the table and the sixteen rows of assignments the
    trip loads, at the same sixteen rows of the output. -/
private theorem trip_pieces (𝒱 : Variants) (c : Dev nD) (bd : Option 𝒱.V) (i : grid0.Coords)
    (arg2 : Memref sig .tc .vmem S256x12 .bf16) (harg2 : arg2.IsWhole)
    (arg3 : Memref sig .tc .vmem S128x128 .i32) (harg3 : arg3.IsWhole)
    (arg4 : Memref sig .tc .vmem S128x128x4 .f32) (harg4 : arg4.IsWhole)
    (v0 : Vec Ideal S256x12 .bf16) (X_arg3 : BufTy.Contents (Elt Ideal) arg3.view.ty) (k : Fin k0_t1_loop.trips) :
    tripL_k0_t1 (F := Ideal) 𝒱 c bd i arg2 harg2 arg3 harg3 arg4 harg4 v0 X_arg3 k
      = [⟨Rect.unit (s := S128x128x4) (k0_off2 k) S16x128x4.size (Gen.k0_off2_inb k),
          k0_pay1 (F := Ideal) v0
            (View.readAt (Elt Ideal) arg3.view
              (Rect.unit (s := S128x128) (k0_off1 k) S16x128.size (Gen.k0_off1_inb k)).toLoadRect X_arg3)⟩] := by
  unfold tripL_k0_t1 trip_k0_t1
  rfl

/-- The run's pieces: the loop's pieces after all its trips, over the table as loaded and the assignments' block. -/
private theorem run_pieces (c : Dev nD) (i : grid0.Coords)
    (arg2 : Memref sig .tc .vmem S256x12 .bf16) (harg2 : arg2.IsWhole)
    (arg3 : Memref sig .tc .vmem S128x128 .i32) (harg3 : arg3.IsWhole)
    (arg4 : Memref sig .tc .vmem S128x128x4 .f32) (harg4 : arg4.IsWhole)
    (x0 : Vec Ideal S256x12 .bf16) (x1 : Vec Ideal S128x128 .i32) :
    (kernelRun0_A (F := Ideal) c i arg2 harg2 arg3 harg3 arg4 harg4 x0 x1).1
      = pb_k0_t1 (F := Ideal) Variants.none c none i arg2 harg2 arg3 harg3 arg4 harg4
          (View.readAt (Elt Ideal) arg2.view
            (Rect.unit (s := S256x12) ![0, 0] S256x12.size Gen.inb_S256x12_S256x12_0_0).toLoadRect (harg2.unread x0))
          (harg3.unread x1) k0_t1_loop.trips := by
  unfold kernelRun0_A
  rfl

/-- The load of the whole table reads the table back. -/
private theorem table_read (arg2 : Memref sig .tc .vmem S256x12 .bf16) (harg2 : arg2.IsWhole) (x0 : Vec Ideal S256x12 .bf16) :
    View.readAt (Elt Ideal) arg2.view
        (Rect.unit (s := S256x12) ![0, 0] S256x12.size Gen.inb_S256x12_S256x12_0_0).toLoadRect (harg2.unread x0)
      = x0 := by
  rw [View.readAt_eq_ld, harg2.read_unread]
  exact View.ld_unit_zero (by funext a; match a with | ⟨0, _⟩ => rfl | ⟨1, _⟩ => rfl) _ x0

/-- Every piece the loop has stored after n trips is the piece of one of its trips. -/
private theorem pb_forall (P : View.Piece (Elt Ideal) S128x128x4 .f32 → Prop)
    (𝒱 : Variants) (c : Dev nD) (bd : Option 𝒱.V) (i : grid0.Coords)
    (arg2 : Memref sig .tc .vmem S256x12 .bf16) (harg2 : arg2.IsWhole)
    (arg3 : Memref sig .tc .vmem S128x128 .i32) (harg3 : arg3.IsWhole)
    (arg4 : Memref sig .tc .vmem S128x128x4 .f32) (harg4 : arg4.IsWhole)
    (v0 : Vec Ideal S256x12 .bf16) (X_arg3 : BufTy.Contents (Elt Ideal) arg3.view.ty)
    (hP : ∀ k : Fin k0_t1_loop.trips,
      ∀ p ∈ tripL_k0_t1 (F := Ideal) 𝒱 c bd i arg2 harg2 arg3 harg3 arg4 harg4 v0 X_arg3 k, P p) :
    ∀ n, n ≤ k0_t1_loop.trips →
      ∀ p ∈ pb_k0_t1 (F := Ideal) 𝒱 c bd i arg2 harg2 arg3 harg3 arg4 harg4 v0 X_arg3 n, P p
  | 0, _, p, hp => by
    rw [pb_k0_t1] at hp
    exact absurd hp List.not_mem_nil
  | n + 1, hn, p, hp => by
    have e := pb_k0_t1_succ (F := Ideal) 𝒱 c bd i arg2 harg2 arg3 harg3 arg4 harg4 v0 X_arg3 ⟨n, hn⟩
    rw [e] at hp
    rcases List.mem_append.mp hp with h | h
    · exact hP ⟨n, hn⟩ p h
    · exact pb_forall P 𝒱 c bd i arg2 harg2 arg3 harg3 arg4 harg4 v0 X_arg3 hP n (Nat.le_of_succ_le hn) p h

/-- The block's function at an index given by coordinates, with every assignment a row number: the row is the
    assignment's value itself. -/
private theorem blockOf_ix3 (x0 : Vec Ideal S256x12 .bf16) (x1 : Vec Ideal S128x128 .i32) (h1 : ∀ j, (x1 j).toNat < 256)
    (a q : Fin 128) (d : Fin 4) :
    blockOf x0 x1 (ix3 a q d)
      = x0 (ix2 ⟨(x1 (ix2 a q)).toNat, h1 _⟩ ⟨d.val, by omega⟩) + x0 (ix2 ⟨(x1 (ix2 a q)).toNat, h1 _⟩ ⟨d.val + 4, by omega⟩)
        + x0 (ix2 ⟨(x1 (ix2 a q)).toNat, h1 _⟩ ⟨d.val + 8, by omega⟩) := by
  have e : blockRow x1 a q = ⟨(x1 (ix2 a q)).toNat, h1 _⟩ := Fin.ext (Nat.mod_eq_of_lt (h1 _))
  show x0 (ix2 (blockRow x1 a q) ⟨d.val, _⟩) + x0 (ix2 (blockRow x1 a q) ⟨d.val + 4, _⟩)
      + x0 (ix2 (blockRow x1 a q) ⟨d.val + 8, _⟩) = _
  rw [e]

/-- Trip k's chunk at (r, q, d) is the block's function at row 16 k + r: the trip loads rows 16 k … 16 k + 15 of the
    assignments and stores at the same rows of the output. -/
private theorem chunk_apply (arg3 : Memref sig .tc .vmem S128x128 .i32) (harg3 : arg3.IsWhole)
    (x0 : Vec Ideal S256x12 .bf16) (x1 : Vec Ideal S128x128 .i32) (h1 : ∀ j, (x1 j).toNat < 256)
    (k : Fin k0_t1_loop.trips) (r : Fin 16) (q : Fin 128) (d : Fin 4) :
    k0_pay1 (F := Ideal) x0
        (View.readAt (Elt Ideal) arg3.view
          (Rect.unit (s := S128x128) (k0_off1 k) S16x128.size (Gen.k0_off1_inb k)).toLoadRect (harg3.unread x1))
        (ix3 r q d)
      = blockOf x0 x1
          ((Rect.unit (s := S128x128x4) (k0_off2 k) S16x128x4.size (Gen.k0_off2_inb k)).emb (ix3 r q d)) := by
  have hk : k.val < 8 := Nat.lt_of_lt_of_le k.isLt k0_t1_abs.2.1
  have ha : 16 * k.val + r.val < 128 := by omega
  have hX : View.readAt (Elt Ideal) arg3.view
        (Rect.unit (s := S128x128) (k0_off1 k) S16x128.size (Gen.k0_off1_inb k)).toLoadRect (harg3.unread x1) (ix2 r q)
      = x1 (ix2 ⟨16 * k.val + r.val, ha⟩ q) := by
    rw [View.readAt_apply, harg3.read_unread]
    refine congrArg x1 ?_
    funext a; apply Fin.ext
    rw [LoadRect.idx_apply]
    show k0_off1 k a + 1 * ((ix2 r q) a).val = _
    rw [k0_off1_eq k]
    match a with
    | ⟨0, _⟩ => show 16 * k.val + 1 * r.val = 16 * k.val + r.val; omega
    | ⟨1, _⟩ => show 0 + 1 * q.val = q.val; omega
  have hY : (Rect.unit (s := S128x128x4) (k0_off2 k) S16x128x4.size (Gen.k0_off2_inb k)).emb (ix3 r q d)
      = ix3 ⟨16 * k.val + r.val, ha⟩ q d := by
    funext a; apply Fin.ext
    rw [Rect.emb_apply]
    show k0_off2 k a + 1 * ((ix3 r q d) a).val = _
    rw [k0_off2_eq k]
    match a with
    | ⟨0, _⟩ => show 16 * k.val + 1 * r.val = 16 * k.val + r.val; omega
    | ⟨1, _⟩ => show 0 + 1 * q.val = q.val; omega
    | ⟨2, _⟩ => show 0 + 1 * d.val = d.val; omega
  have h : (View.readAt (Elt Ideal) arg3.view
        (Rect.unit (s := S128x128) (k0_off1 k) S16x128.size (Gen.k0_off1_inb k)).toLoadRect (harg3.unread x1)
        (ix2 r q)).toNat < 256 := by
    rw [hX]; exact h1 _
  have e : (⟨(View.readAt (Elt Ideal) arg3.view
        (Rect.unit (s := S128x128) (k0_off1 k) S16x128.size (Gen.k0_off1_inb k)).toLoadRect (harg3.unread x1)
        (ix2 r q)).toNat, h⟩ : Fin 256) = ⟨(x1 (ix2 ⟨16 * k.val + r.val, ha⟩ q)).toNat, h1 _⟩ :=
    Fin.ext (congrArg BitVec.toNat hX)
  rw [hY, blockOf_ix3 x0 x1 h1, pay_apply x0 _ r q d h, e]

/-- With every assignment of the block a row number of the table, what the body's run leaves in the output's staging
    buffer is that function. -/
theorem out_block_eq (c : Dev nD) (i : grid0.Coords) (arg2 : Memref sig .tc .vmem S256x12 .bf16) (harg2 : arg2.IsWhole)
    (arg3 : Memref sig .tc .vmem S128x128 .i32) (harg3 : arg3.IsWhole) (arg4 : Memref sig .tc .vmem S128x128x4 .f32) (harg4 : arg4.IsWhole)
    (x0 : Vec Ideal S256x12 .bf16) (x1 : Vec Ideal S128x128 .i32) (h1 : ∀ j, (x1 j).toNat < 256) :
    out0_A_2 (F := Ideal) c i arg2 harg2 arg3 harg3 arg4 harg4 x0 x1 = blockOf x0 x1 := by
  unfold out0_A_2
  rw [View.read_writes_eq_canon VO0_2 _ _ (cover0_A_2 c i arg2 harg2 arg3 harg3 arg4 harg4 x0 x1)]
  funext y
  refine View.canon_apply_of_pieces (blockOf x0 x1) _ ?_ y (cover0_A_2 c i arg2 harg2 arg3 harg3 arg4 harg4 x0 x1 y)
  rw [run_pieces, table_read]
  refine pb_forall _ Variants.none c none i arg2 harg2 arg3 harg3 arg4 harg4 x0 (harg3.unread x1) (fun k p hp => ?_) _ le_rfl
  rw [trip_pieces] at hp
  obtain rfl := List.mem_singleton.mp hp
  intro x
  obtain ⟨r, q, d, rfl⟩ : ∃ (r : Fin 16) (q : Fin 128) (d : Fin 4), x = ix3 r q d := ⟨x 0, x 1, x 2, eq_ix3 x⟩
  exact chunk_apply arg3 harg3 x0 x1 h1 k r q d

end Cert.KernelIdeal.Hand

end
-- ==== Proof.Limbs.lean ====
/-
  The table the region is handed. The host lines before the region build it from the codebook: the codebook changed
  of format, the remainder of that change, and the remainder of the remainder's change, side by side, twelve columns.
  Over the extended reals a change of format is the identity, so each remainder is a difference x − x, which is zero
  where x is a real number: with a finite codebook the table is the codebook in its first four columns and zero in the
  other eight.
-/
import proofs.«429566_j53017076302344_3_alg».proof.Proof.Gen.KernelIdeal.Skeleton
import proofs.«429566_j53017076302344_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open Cert.KernelIdeal.Facts₀ Cert.KernelIdeal.Facts

variable [Cert.KernelIdeal.Facts]

/-- The table the host lines before the region build from the codebook: the codebook, the remainder of its first
    change of format, and the remainder of that remainder's, side by side. -/
def limbs {F : FTy → Type} [FloatOps F] (x : FVec F S256x4 .f32) : FVec F S256x12 .bf16 :=
  concatenate S256x12 1
    [⟨S256x4, truncf .bf16 x Facts₀.bitsLt_bf16_f32⟩,
     ⟨S256x4, truncf .bf16 (subf x (extf .f32 (truncf .bf16 x Facts₀.bitsLt_bf16_f32) Facts₀.bitsLt_bf16_f32)) Facts₀.bitsLt_bf16_f32⟩,
     ⟨S256x4, truncf .bf16 (subf (subf x (extf .f32 (truncf .bf16 x Facts₀.bitsLt_bf16_f32) Facts₀.bitsLt_bf16_f32))
        (extf .f32 (truncf .bf16 (subf x (extf .f32 (truncf .bf16 x Facts₀.bitsLt_bf16_f32) Facts₀.bitsLt_bf16_f32)) Facts₀.bitsLt_bf16_f32) Facts₀.bitsLt_bf16_f32)) Facts₀.bitsLt_bf16_f32⟩]
    Facts₀.concatenates_S256x4_S256x4_S256x4_S256x12_d1

/-- A finite entry less itself is zero (the difference of a real number with itself, read back in the extended reals). -/
private theorem sub_self_of_finite (x : FVec Ideal S256x4 .f32) (hx : Cert.Lookup.Finite x) (i : S256x4.Idx) :
    x i - x i = 0 := by
  obtain ⟨r, hr⟩ := hx i
  rw [hr, ← EReal.coe_sub, sub_self, EReal.coe_zero]

/-- Three four-column pieces side by side, read in the first piece's columns. -/
private theorem cat3_apply_0 {α : Type} (p0 p1 p2 : S256x4.Idx → α)
    (h : Shape.Concatenates [S256x4, S256x4, S256x4] S256x12 1) (k : Fin 256) (n : Fin 12) (m : Fin 4)
    (hm : 0 + m.val = n.val) :
    concatenate S256x12 1 [⟨S256x4, p0⟩, ⟨S256x4, p1⟩, ⟨S256x4, p2⟩] h (ix2 k n) = p0 (ix2 k m) := by
  refine concatenate_apply_piece (t := S256x12) (1 : Fin 2)
    ([⟨S256x4, p0⟩, ⟨S256x4, p1⟩, ⟨S256x4, p2⟩] : List ((s : Shape) × (s.Idx → α))) h (ix2 k n) 0 (by show (0 : Nat) < 3; omega) S256x4 p0 rfl rfl 0 rfl (ix2 k m) ?_ hm
  intro b hb
  match b, hb with
  | ⟨0, _⟩, _ => rfl
  | ⟨1, _⟩, hb => exact absurd rfl hb

/-- Three four-column pieces side by side, read in the second piece's columns. -/
private theorem cat3_apply_1 {α : Type} (p0 p1 p2 : S256x4.Idx → α)
    (h : Shape.Concatenates [S256x4, S256x4, S256x4] S256x12 1) (k : Fin 256) (n : Fin 12) (m : Fin 4)
    (hm : 4 + m.val = n.val) :
    concatenate S256x12 1 [⟨S256x4, p0⟩, ⟨S256x4, p1⟩, ⟨S256x4, p2⟩] h (ix2 k n) = p1 (ix2 k m) := by
  refine concatenate_apply_piece (t := S256x12) (1 : Fin 2)
    ([⟨S256x4, p0⟩, ⟨S256x4, p1⟩, ⟨S256x4, p2⟩] : List ((s : Shape) × (s.Idx → α))) h (ix2 k n) 1 (by show (1 : Nat) < 3; omega) S256x4 p1 rfl rfl 4 rfl (ix2 k m) ?_ hm
  intro b hb
  match b, hb with
  | ⟨0, _⟩, _ => rfl
  | ⟨1, _⟩, hb => exact absurd rfl hb

/-- Three four-column pieces side by side, read in the third piece's columns. -/
private theorem cat3_apply_2 {α : Type} (p0 p1 p2 : S256x4.Idx → α)
    (h : Shape.Concatenates [S256x4, S256x4, S256x4] S256x12 1) (k : Fin 256) (n : Fin 12) (m : Fin 4)
    (hm : 8 + m.val = n.val) :
    concatenate S256x12 1 [⟨S256x4, p0⟩, ⟨S256x4, p1⟩, ⟨S256x4, p2⟩] h (ix2 k n) = p2 (ix2 k m) := by
  refine concatenate_apply_piece (t := S256x12) (1 : Fin 2)
    ([⟨S256x4, p0⟩, ⟨S256x4, p1⟩, ⟨S256x4, p2⟩] : List ((s : Shape) × (s.Idx → α))) h (ix2 k n) 2 (by show (2 : Nat) < 3; omega) S256x4 p2 rfl rfl 8 rfl (ix2 k m) ?_ hm
  intro b hb
  match b, hb with
  | ⟨0, _⟩, _ => rfl
  | ⟨1, _⟩, hb => exact absurd rfl hb

/-- With a finite codebook the table is the codebook in its first four columns and zero in the other eight. -/
theorem limbs_apply (x : FVec Ideal S256x4 .f32) (hx : Cert.Lookup.Finite x) (k : Fin 256) (n : Fin 12) :
    limbs (F := Ideal) x (ix2 k n) = if h : n.val < 4 then x (ix2 k ⟨n.val, h⟩) else 0 := by
  have hn : n.val < 12 := n.isLt
  unfold limbs
  by_cases h0 : n.val < 4
  · rw [dif_pos h0]
    exact cat3_apply_0 _ _ _ _ k n ⟨n.val, h0⟩ (Nat.zero_add _)
  · rw [dif_neg h0]
    by_cases h1 : n.val < 8
    · refine (cat3_apply_1 _ _ _ _ k n ⟨n.val - 4, by omega⟩ (by show 4 + (n.val - 4) = n.val; omega)).trans ?_
      exact sub_self_of_finite x hx _
    · refine (cat3_apply_2 _ _ _ _ k n ⟨n.val - 8, by omega⟩ (by show 8 + (n.val - 8) = n.val; omega)).trans ?_
      show (x _ - x _) - (x _ - x _) = 0
      rw [sub_self_of_finite x hx _, sub_zero]

end Cert.KernelIdeal.Hand

end
-- ==== Proof.LibNary3.lean ====
/-
  A general lemma about host programs, of no particular kernel: the result of an operation over a LITERAL family of
  three operand references (a concatenation of three arrays), with each operand's contents at its own reference — the
  literal family applied under the binder is replaced by the three contents consed together — so that rewriting can go
  on into the operands. The library states this for four references; this is the same statement for three.
-/
import Idealize.ShloMosaic.Lib.StableHlo.Run

namespace Cert.LibNary3

open Idealize.ShloMosaic Idealize.ShloMosaic.StableHlo

variable {τ : Topo} {sig : RefSig} {Val : EltTy → Type} {x a b y : Ref sig .tc}

/-- The result buffer of a three-operand operation holds its function of the three operands' contents, each read at
    its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a simplifier pass can use. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3
-- ==== Proof.KIPrefix.lean ====
/-
  What the region finds in the table's buffer, at the extended reals: the eight host lines before the region — three
  changes of format, two subtractions, and the concatenation of the three pieces — applied to the launched codebook are
  the twelve-column table of the codebook.
-/
import proofs.«429566_j53017076302344_3_alg».proof.Proof.KIKit
import proofs.«429566_j53017076302344_3_alg».proof.Proof.Limbs
import proofs.«429566_j53017076302344_3_alg».proof.Proof.LibNary3
import Idealize.ShloMosaic.Lib.StableHlo.Run

set_option maxRecDepth 16384

noncomputable section

namespace Cert.KernelIdeal.Hand

open Cert.KernelIdeal Cert.KernelIdeal.Gen Cert.KernelIdeal.Frame
open Idealize.ShloMosaic Idealize.ShloMosaic.TcCoe Idealize.SL.Sem

variable (m : (ℓ : Loc nD τ sig) → Buf (Elt Ideal) ℓ)

/-- The region finds the table built from the launched codebook. -/
theorem V_main_v7 (c : Dev nD) : V m c main_v7 = limbs (F := Ideal) (m ((c : Thread nD τ).loc main_arg0)) := by
  -- the buffer's contents on entry are the eight host lines folded over the launch contents
  dsimp only [V, V0]
  simp only [hostOps0, List.flatten_cons, List.flatten_nil, List.append_nil]
  simp only [StableHlo.after_cons, StableHlo.after_nil]
  -- the last line writes the table: the concatenation of the contents of its three operands
  rw [Cert.LibNary3.nary3_result]
  -- each operand is carried back, line by line, to the launched codebook
  repeat (first
    | rw [StableHlo.unary_result] | rw [StableHlo.binary_result]
    | (rw [StableHlo.unary_result_ne]; rotate_left; decide)
    | (rw [StableHlo.binary_result_ne]; rotate_left; decide))
  -- the three pieces read at the literals 0, 1, 2 are the three pieces of the table
  rfl

end Cert.KernelIdeal.Hand

end
-- ==== Proof.KIValueArr.lean ====
/-
  From blocks to the array, at the extended reals. The region finds the twelve-column table built from the codebook and
  the assignments as launched; at grid point (i, j) the table's window is the whole table and the assignments' window
  rows 128 i … and columns 128 j … of the assignments; what the point writes back is, by the block lemma, the table's
  three columns summed at the named rows, which for a finite codebook is the codebook's component (the other two columns
  hold zero); the 64 × 16 points' blocks tile the output array, so after the last point the array is the lookup.
-/
import proofs.«429566_j53017076302344_3_alg».proof.Proof.KIValueBlock
import proofs.«429566_j53017076302344_3_alg».proof.Proof.KIPrefix
import proofs.«429566_j53017076302344_3_alg».proof.Proof.Spec
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.KernelIdeal.Frame
open Idealize.ShloMosaic Idealize.ShloMosaic.TcCoe Idealize.ShloMosaic.ValueIdx Idealize.SL.Sem

variable (m : (ℓ : Loc nD τ sig) → Buf (Elt Ideal) ℓ)

/-- The printed index maps over the grid, row-major: point t has block row t / 16 and block column t % 16 in the
    assignments and in the output; the table's window never moves. -/
private theorem idx_facts : ∀ t : Fin cfg0.N,
    win0_2.index t (0 : Fin 3) = t.val / 16 ∧ win0_2.index t (1 : Fin 3) = t.val % 16 ∧ win0_2.index t (2 : Fin 3) = 0
    ∧ win0_1.index t (0 : Fin 2) = t.val / 16 ∧ win0_1.index t (1 : Fin 2) = t.val % 16
    ∧ win0_0.index t (0 : Fin 2) = 0 ∧ win0_0.index t (1 : Fin 2) = 0 :=
  (by decide +kernel : ∀ t : Fin grid0.N, _)

/-- One entry of an output block is the lookup's entry, when the table is the codebook's table and the block's
    assignment at the entry's position is the array's at the lookup's position. -/
private theorem blockOf_eq_G3 (x : FVec Ideal Cert.Lookup.S256x4 .f32) (hx : Cert.Lookup.Finite x) (a : IVec Cert.Lookup.S8192x2048 32)
    (x0 : Vec Ideal S256x12 .bf16) (x1 : Vec Ideal S128x128 .i32)
    (hx0 : ∀ k n, x0 (ix2 k n) = limbs (F := Ideal) x (ix2 k n))
    (y : S128x128x4.Idx) (j : Cert.Lookup.S8192x2048x4.Idx)
    (h1 : x1 (ix2 (y 0) (y 1)) = a (ix2 (j 0) (j 1))) (h2 : (j 2).val = (y 2).val) :
    blockOf x0 x1 y = Cert.Lookup.G3 x a j := by
  have hy : (y 2).val < 4 := (y 2).isLt
  unfold blockOf Cert.Lookup.G3
  rw [hx0, hx0, hx0, limbs_apply x hx, limbs_apply x hx, limbs_apply x hx]
  rw [dif_pos (show (y 2).val < 4 from hy), dif_neg (show ¬ (y 2).val + 4 < 4 by omega),
    dif_neg (show ¬ (y 2).val + 8 < 4 by omega), add_zero, add_zero]
  have e1 : blockRow x1 (y 0) (y 1) = Cert.Lookup.row a (j 0) (j 1) :=
    Fin.ext (by show (x1 (ix2 (y 0) (y 1))).toNat % 256 = (a (ix2 (j 0) (j 1))).toNat % 256; rw [h1])
  have e2 : (⟨(y 2).val, hy⟩ : Fin 4) = j 2 := Fin.ext h2.symm
  rw [e1]
  exact congrArg (fun n => x (ix2 (Cert.Lookup.row a (j 0) (j 1)) n)) e2

/-- The table's window at any point is the whole table. -/
private theorem iblk0_apply (c : Dev nD) (t : Fin cfg0.N) (y : S256x12.Idx) :
    (iblk m c 0 t : Vec Ideal S256x12 .bf16) y = limbs (F := Ideal) (m ((c : Thread nD τ).loc main_arg0)) y := by
  obtain ⟨-, -, -, -, -, z0, z1⟩ := idx_facts t
  unfold iblk
  rw [View.read_apply]
  show V m c main_v7 _ = _
  rw [V_main_v7]
  congr 1
  funext b
  apply Fin.ext
  match b with
  | ⟨0, _⟩ => show win0_0.index t (0 : Fin 2) * 256 + 1 * (y 0).val = (y 0).val; rw [z0]; omega
  | ⟨1, _⟩ => show win0_0.index t (1 : Fin 2) * 12 + 1 * (y 1).val = (y 1).val; rw [z1]; omega

/-- The assignments' window at point t is rows 128 (t / 16) … and columns 128 (t % 16) … of the assignments. -/
private theorem iblk1_apply (c : Dev nD) (t : Fin cfg0.N) (y : S128x128.Idx) (k : Cert.Lookup.S8192x2048.Idx)
    (hk0 : (k 0).val = t.val / 16 * 128 + (y 0).val) (hk1 : (k 1).val = t.val % 16 * 128 + (y 1).val) :
    (iblk m c 1 t : Vec Ideal S128x128 .i32) y = (m ((c : Thread nD τ).loc main_arg1) : Cert.Lookup.S8192x2048.Idx → BitVec 32) k := by
  obtain ⟨-, -, -, e0, e1, -, -⟩ := idx_facts t
  unfold iblk
  rw [View.read_apply]
  show V m c main_arg1 _ = _
  rw [V_main_arg1]
  congr 1
  funext b
  apply Fin.ext
  match b with
  | ⟨0, _⟩ => show win0_1.index t (0 : Fin 2) * 128 + 1 * (y 0).val = (k 0).val; rw [e0, hk0]; omega
  | ⟨1, _⟩ => show win0_1.index t (1 : Fin 2) * 128 + 1 * (y 1).val = (k 1).val; rw [e1, hk1]; omega

/-- What point t writes back is its block of the lookup. -/
private theorem flushed_eq (c : Dev nD) (hx : Cert.Lookup.Finite (m ((c : Thread nD τ).loc main_arg0)))
    (ha : Cert.Lookup.InRange (m ((c : Thread nD τ).loc main_arg1))) (t : Fin cfg0.N) :
    (dats m 0 c).flushed 2 t = ((cfg0.win 2).blk t).view.read (Elt Ideal)
      (Cert.Lookup.G3 (m ((c : Thread nD τ).loc main_arg0)) (m ((c : Thread nD τ).loc main_arg1))) := by
  have hN : grid0.N = 1024 := N_0
  have ht : t.val < 1024 := hN ▸ t.isLt
  obtain ⟨o0, o1, o2, -, -, -, -⟩ := idx_facts t
  have h1 : ∀ j, ((iblk m c 1 t : Vec Ideal S128x128 .i32) j).toNat < 256 := fun j => by
    have hj0 : (j 0).val < 128 := (j 0).isLt
    have hj1 : (j 1).val < 128 := (j 1).isLt
    rw [iblk1_apply m c t j (ix2 ⟨t.val / 16 * 128 + (j 0).val, by omega⟩ ⟨t.val % 16 * 128 + (j 1).val, by omega⟩) rfl rfl]
    exact ha _
  show (cfg0.win 2).cut (grid0.coords t) ((dats m 0 c).after 2 t) = _
  rw [after0_2]
  unfold outsAt0
  rw [out_block_eq _ _ _ _ _ _ _ _ _ _ h1]
  funext y
  rw [View.read_apply]
  have hy0 : (y 0).val < 128 := (y 0).isLt
  have hy1 : (y 1).val < 128 := (y 1).isLt
  have hy2 : (y 2).val < 4 := (y 2).isLt
  refine blockOf_eq_G3 _ hx _ _ _ (fun k n => iblk0_apply m c t (ix2 k n)) _ _ ?_ ?_
  · refine iblk1_apply m c t _ _ ?_ ?_
    · show win0_2.index t (0 : Fin 3) * 128 + 1 * (y 0).val = t.val / 16 * 128 + (y 0).val
      rw [o0]; omega
    · show win0_2.index t (1 : Fin 3) * 128 + 1 * (y 1).val = t.val % 16 * 128 + (y 1).val
      rw [o1]; omega
  · show win0_2.index t (2 : Fin 3) * 4 + 1 * (y 2).val = (y 2).val
    rw [o2]; omega

/-- An index of the output array is in point t's block when each coordinate is in the block's range on its axis. -/
private theorem mem_blk (t : Fin cfg0.N) (i : Cert.Lookup.S8192x2048x4.Idx) :
    i ∈ ((cfg0.win 2).blk t).view.set ↔ ∀ b : Fin 3, win0_2.index t b * S128x128x4.size b ≤ (i b).val ∧ (i b).val < win0_2.index t b * S128x128x4.size b + S128x128x4.size b := by
  show i ∈ ((View.whole main_v8).slice (win0_2.rect t)).set ↔ _
  rw [View.set_slice_whole, Rect.mem_set_unit]
  exact Iff.rfl

/-- The blocks of the 64 × 16 points tile the output array: (r, q, d) lies in the block of point (r / 128) 16 + q / 128. -/
private theorem cover (i : Cert.Lookup.S8192x2048x4.Idx) :
    ∃ t : Fin cfg0.N, (cfg0.win 2).flush t = true ∧ i ∈ ((cfg0.win 2).blk t).view.set := by
  have hN : grid0.N = 1024 := N_0
  have hi0 : (i 0).val < 8192 := (i 0).isLt
  have hi1 : (i 1).val < 2048 := (i 1).isLt
  have hi2 : (i 2).val < 4 := (i 2).isLt
  let t : Fin cfg0.N := ⟨(i 0).val / 128 * 16 + (i 1).val / 128, by show _ < grid0.N; rw [hN]; omega⟩
  have htv : t.val = (i 0).val / 128 * 16 + (i 1).val / 128 := rfl
  obtain ⟨o0, o1, o2, -, -, -, -⟩ := idx_facts t
  refine ⟨t, flush0_2 t, ?_⟩
  rw [mem_blk]
  intro b
  match b with
  | ⟨0, _⟩ => show win0_2.index t (0 : Fin 3) * 128 ≤ (i 0).val ∧ (i 0).val < win0_2.index t (0 : Fin 3) * 128 + 128; rw [o0, htv]; omega
  | ⟨1, _⟩ => show win0_2.index t (1 : Fin 3) * 128 ≤ (i 1).val ∧ (i 1).val < win0_2.index t (1 : Fin 3) * 128 + 128; rw [o1, htv]; omega
  | ⟨2, _⟩ => show win0_2.index t (2 : Fin 3) * 4 ≤ (i 2).val ∧ (i 2).val < win0_2.index t (2 : Fin 3) * 4 + 4; rw [o2]; omega

/-- With a finite codebook and the assignments in range, the output array after the last grid point is the lookup. -/
theorem final_arr (c : Dev nD) (hx : Cert.Lookup.Finite (m ((c : Thread nD τ).loc main_arg0)))
    (ha : Cert.Lookup.InRange (m ((c : Thread nD τ).loc main_arg1))) :
    (dats m 0 c).arrAt 2 cfg0.N = Cert.Lookup.G3 (m ((c : Thread nD τ).loc main_arg0)) (m ((c : Thread nD τ).loc main_arg1)) := by
  exact (dats m 0 c).arrAt_eq_of_cover 2 _ (fun t _ => flushed_eq m c hx ha t) cover

end Cert.KernelIdeal.Hand

end
-- ==== Proof.KIValueRun.lean ====
/-
  The idealized kernel program's run to the lookup: every weakly fair execution terminates with the result buffer — the
  output array with its last two axes merged by the host line after the region — at the lookup matrix, and both arguments
  unchanged, for a finite codebook and assignments in range.
-/
import proofs.«429566_j53017076302344_3_alg».proof.Proof.KIValueArr
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.KernelIdeal.Frame
open Idealize.ShloMosaic Idealize.ShloMosaic.TcCoe Idealize.ShloMosaic.ValueIdx Idealize.SL.Sem

/-- The lookup array with its last two axes merged row-major is the lookup matrix. -/
theorem merge_G3 (x : FVec Ideal S256x4 .f32) (a : IVec S8192x2048 32) :
    shapeCast S8192x8192 (Cert.Lookup.G3 x a) Facts₀.shapeCasts_S8192x2048x4_S8192x8192 = Cert.Lookup.G x a := by
  funext i
  obtain ⟨r, j, rfl⟩ : ∃ (r : Fin 8192) (j : Fin 8192), i = ix2 r j := ⟨i 0, i 1, eq_ix2 i⟩
  refine (shapeCast_apply _ _ (ix2 r j)
    (ix3 r (⟨j.val / 4, by omega⟩ : Fin 2048) (⟨j.val % 4, Nat.mod_lt _ (by decide)⟩ : Fin 4)) ?_).trans rfl
  rw [Shape.rowMajor_val_three, Shape.rowMajor_val_two]
  show (r.val * 2048 + j.val / 4) * 4 + j.val % 4 = r.val * 8192 + j.val
  omega

/-- The result buffer after the host line that follows the region: the output array, at the lookup, merged. -/
private theorem tail_v9 (m : (ℓ : Loc nD τ sig) → Buf (Elt Ideal) ℓ) (c : Dev nD)
    (hx : Cert.Lookup.Finite (m ((c : Thread nD τ).loc main_arg0)))
    (ha : Cert.Lookup.InRange (m ((c : Thread nD τ).loc main_arg1))) :
    Pipeline.afterTail₀ cfgs (dats m) 0 (V0 m) [hostOps1] c main_v9
      = Cert.Lookup.G (m ((c : Thread nD τ).loc main_arg0)) (m ((c : Thread nD τ).loc main_arg1)) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = Cert.Lookup.G3 (m ((c : Thread nD τ).loc main_arg0)) (m ((c : Thread nD τ).loc main_arg1)) :=
    (Pipeline.withArrays_arr spec0 launch0.win.arr_inj c _ _ 2).trans (final_arr m c hx ha)
  rw [e]
  exact merge_G3 _ _

/-- The run. -/
theorem run (m : (ℓ : Loc nD τ sig) → Buf (Elt Ideal) ℓ) (ρ : Dev nD → PrngReg)
    (hx : ∀ c : Dev nD, Cert.Lookup.Finite (m ((c : Thread nD τ).loc main_arg0)))
    (ha : ∀ c : Dev nD, Cert.Lookup.InRange (m ((c : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v9) = Cert.Lookup.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact (θ_run defs _ _).mono (fun _ h c =>
    ⟨((h c).2 main_v9 (Pipeline.mem_restRefs_of main_v9 (by decide) (by decide))).trans (tail_v9 m c (hx c) (ha c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main (F := Ideal) m ρ)

end Cert.KernelIdeal.Hand

end
-- ==== Proof.RefTerm.lean ====
/-
  The reference program as one pure term of its two arguments: the operations of its lookup helper composed in the
  order the program applies them — a negative row number is moved up by 256, the result is tested against [0, 255],
  the rows are gathered at the (moved) row numbers, and where the test fails the not-a-number pattern is put in the
  gathered row's place — followed by the row-major merge of the last two axes.
-/
import proofs.«429566_j53017076302344_3_alg».proof.ReferenceIdeal

noncomputable section

namespace Cert.ReferenceIdeal.Hand

open Idealize.ShloMosaic Cert.ReferenceIdeal
open Cert.ReferenceIdeal.Facts₀ Cert.ReferenceIdeal.Facts

variable {F : FTy → Type} [FloatOps F] [Cert.ReferenceIdeal.Facts]

/-- The row numbers the gather is handed: a negative one moved up by 256, the others as they are; with a unit last
    axis. -/
def movedIdx (a : IVec S8192x2048 32) : IVec S8192x2048x1 32 :=
  broadcastInDim S8192x2048x1 ![0, 1] bcast_S8192x2048_S8192x2048x1_0_1
    (select (cmpi .slt a (broadcastInDim S8192x2048 ![] bcast_S_S8192x2048 (constantI S_ 32 0#32)))
      (addi a (broadcastInDim S8192x2048 ![] bcast_S_S8192x2048 (constantI S_ 32 256#32))) a)

/-- Where the moved row number lies in [0, 255]. -/
def okMask (a : IVec S8192x2048 32) : IVec S8192x2048 1 :=
  Host.reduce IntOp.andi
    (andi (cmpi .sge (movedIdx a) (broadcastInDim S8192x2048x1 ![] bcast_S_S8192x2048x1 (constantI S_ 32 0#32)))
      (cmpi .sle (movedIdx a) (broadcastInDim S8192x2048x1 ![0, 1, 2] bcast_S1x1x1_S8192x2048x1_0_1_2
        (broadcastInDim S1x1x1 ![2] bcast_S1_S1x1x1_2 (constantI S1 32 255#32)))))
    (constantI S_ 1 1#1) reducesTo_S8192x2048x1_S8192x2048_d2 h_S_

/-- The lookup helper's result. -/
def takeTerm (x : FVec F S256x4 .f32) (a : IVec S8192x2048 32) : FVec F S8192x2048x4 .f32 :=
  select (broadcastInDim S8192x2048x4 ![0, 1] bcast_S8192x2048_S8192x2048x4_0_1 (okMask a))
    (Host.gather gather_S256x4_S8192x2048x1_S8192x2048x4_2_0_n_n_0_2_14 x (movedIdx a))
    (broadcastInDim S8192x2048x4 ![] bcast_S_S8192x2048x4 (constant (F := F) S_ .f32 0x7FC00000#32))

/-- The reference's result. -/
def refTerm (x : FVec F S256x4 .f32) (a : IVec S8192x2048 32) : FVec F S8192x8192 .f32 :=
  shapeCast S8192x8192 (takeTerm x a) shapeCasts_S8192x2048x4_S8192x8192

end Cert.ReferenceIdeal.Hand

end
-- ==== Proof.RefRun.lean ====
/-
  The reference program's run: every weakly fair execution of its @main terminates with the result buffer at the
  composed term of the two arguments and the arguments unchanged.
-/
import proofs.«429566_j53017076302344_3_alg».proof.Proof.Gen.ReferenceIdeal
import proofs.«429566_j53017076302344_3_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main as one straight line: the lookup helper's twenty-three operations over the buffers of its one call (the
    select of its inner helper in seventh place, writing that call's buffer), then the reshape. -/
private abbrev line : List (HloOp τ sig (Elt F)) :=
  [ TRef.nullary main_call0.c (constantI S_ 32 0#32),
    TRef.unary main_call0.c main_call0.v0 (broadcastInDim S8192x2048 ![] bcast_S_S8192x2048),
    TRef.binary (.of main_arg1) main_call0.v0 main_call0.v1 (cmpi .slt),
    TRef.nullary main_call0.c_0 (constantI S_ 32 256#32),
    TRef.unary main_call0.c_0 main_call0.v2 (broadcastInDim S8192x2048 ![] bcast_S_S8192x2048),
    TRef.binary (.of main_arg1) main_call0.v2 main_call0.v3 addi,
    TRef.ternary main_call0.v1 main_call0.v3 (.of main_arg1) main_call0.call0.v0 select,
    TRef.unary main_call0.call0.v0 main_call0.v5 (broadcastInDim S8192x2048x1 ![0, 1] bcast_S8192x2048_S8192x2048x1_0_1),
    TRef.nullary main_call0.c_1 (constantI S1 32 255#32),
    TRef.nullary main_call0.c_2 (constantI S_ 32 0#32),
    TRef.unary main_call0.c_2 main_call0.v6 (broadcastInDim S8192x2048x1 ![] bcast_S_S8192x2048x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S8192x2048x1 ![0, 1, 2] bcast_S1x1x1_S8192x2048x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12
      (fun x v => Host.reduce IntOp.andi x v reducesTo_S8192x2048x1_S8192x2048_d2 h_S_),
    TRef.binary (.of main_arg0) main_call0.v5 main_call0.v13
      (fun x i => Host.gather gather_S256x4_S8192x2048x1_S8192x2048x4_2_0_n_n_0_2_14 x i),
    TRef.unary main_call0.v12 main_call0.v14 (broadcastInDim S8192x2048x4 ![0, 1] bcast_S8192x2048_S8192x2048x4_0_1),
    TRef.nullary main_call0.cst (constant S_ .f32 0x7FC00000#32),
    TRef.unary main_call0.cst main_call0.v15 (broadcastInDim S8192x2048x4 ![] bcast_S_S8192x2048x4),
    TRef.ternary main_call0.v14 main_call0.v13 main_call0.v15 main_call0.v16 select,
    reshape main_v0 main_v1 rfl shapeCasts_S8192x2048x4_S8192x8192 ]

set_option maxRecDepth 1024 in
/-- @main is that line: the two helpers' bodies unfolded at their calls and sequencing reassociated, both sides are
    the same chain of steps. -/
private theorem main_line (c : Dev nD) : main (F := F) c = seq line := by
  simp only [main, fn_take.body, fn_where.body, seq, bind_assoc, pure_bind]

/-- The signature scopes no buffer. -/
private theorem no_scoped_ref : (Finset.univ.filter fun b : Ref sig .tc => b.isScoped) = ∅ := by decide
/-- The signature scopes no semaphore. -/
private theorem no_scoped_sem : (Finset.univ.filter fun sm : SemLoc sig => sm.isScoped .tc) = ∅ := by decide

/-- Every operation of the line touches TensorCore buffers only. -/
private theorem line_sub : (line : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..⟩

/-- Moving contents to a typed reference's buffer type and back changes nothing: the two moves are transports along
    one equation of types and its inverse. -/
private theorem ofBuf_toBuf {T : BufTy} (x : TRef sig T) (v : T.Contents (Elt F)) : x.ofBuf (x.toBuf v) = v := by
  obtain ⟨r, h, _, _⟩ := x
  subst h
  rfl

/-- At a reference typed by its own buffer type the move from the buffer's type is the identity. -/
private theorem ofBuf_of (r : Ref sig .tc) (hd : r.space ≠ .host) (hs : r.isScoped = false) (v : r.ty.Contents (Elt F)) :
    (TRef.of (T := r.ty) r rfl hd hs).ofBuf v = v := rfl

/-- And so is the move to it. -/
private theorem toBuf_of (r : Ref sig .tc) (hd : r.space ≠ .host) (hs : r.isScoped = false) (v : r.ty.Contents (Elt F)) :
    (TRef.of (T := r.ty) r rfl hd hs).toBuf v = v := rfl

set_option maxRecDepth 8192 in
set_option maxHeartbeats 800000 in
/-- What the result buffer holds after the line, from any contents `V`: each operation's value read at its own
    buffer and every other buffer left as it was gives the operations' functions composed over the two arguments'
    contents, each intermediate value moved to its buffer's type and back; those moves cancel in pairs, the ones at
    the arguments and at the reshape's operand are identities, and what is left is `refTerm` unfolded. -/
private theorem line_v1 (V : Valuation τ sig (Elt F)) :
    after line V (main_v1 : DevRef τ sig) = refTerm (F := F) (V (main_arg0 : DevRef τ sig)) (V (main_arg1 : DevRef τ sig)) := by
  after_results
  repeat rw [ofBuf_toBuf]
  rw [toBuf_of main_v0, ofBuf_of main_arg0, ofBuf_of main_arg1]
  rfl

set_option maxHeartbeats 400000 in
/-- No operation of the line writes the first argument. -/
private theorem line_arg0 (V : Valuation τ sig (Elt F)) :
    after line V (main_arg0 : DevRef τ sig) = V (main_arg0 : DevRef τ sig) := by
  after_results

set_option maxHeartbeats 400000 in
/-- Nor the second. -/
private theorem line_arg1 (V : Valuation τ sig (Elt F)) :
    after line V (main_arg1 : DevRef τ sig) = V (main_arg1 : DevRef τ sig) := by
  after_results

/-- On every device, from any memory with zero counters: @main terminates with its result at `refTerm` of the
    arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = refTerm (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono
    (fun _ h c => ⟨(h c main_v1).trans (line_v1 _), (h c main_arg0).trans (line_arg0 _), (h c main_arg1).trans (line_arg1 _)⟩)
    (run_seq no_scoped_ref no_scoped_sem defs main (fun _ => line) main_line (fun _ => line_sub) m ρ)

end Cert.ReferenceIdeal.Hand

end
-- ==== Proof.RefValue.lean ====
/-
  The reference's term is the lookup: where every assignment is a row number of the codebook no row number is moved,
  the range test holds everywhere, and the gather reads the row the assignment names.
-/
import proofs.«429566_j53017076302344_3_alg».proof.Proof.Gen.ReferenceIdeal
import proofs.«429566_j53017076302344_3_alg».proof.Proof.RefTerm
import proofs.«429566_j53017076302344_3_alg».proof.Proof.Spec
import Idealize.ShloMosaic.Lib.ValueIdx
import Idealize.ShloMosaic.Lib.Pipeline.Value
import Idealize.ShloMosaic.Lib.StableHlo.Predicate

noncomputable section

namespace Cert.ReferenceIdeal.Hand

open Cert.ReferenceIdeal Cert.ReferenceIdeal.Gen Idealize.ShloMosaic Idealize.ShloMosaic.ValueIdx

open Idealize.ShloMosaic.StableHlo.Predicate in
/-- A word below 256 is not negative as a signed word. -/
private theorem not_slt_zero {w : BitVec 32} (hw : w.toNat < 256) : ¬ IntOp.cmpi .slt w 0#32 = 1#1 := by
  intro h
  have h1 := (slt_iff_toNat (a := w) (b := 0#32) (by omega) (by decide)).1 h
  have h0 : (0#32 : BitVec 32).toNat = 0 := rfl
  omega

open Idealize.ShloMosaic.StableHlo.Predicate in
/-- A word below 256 passes the range test: it is at least 0 and at most 255 as a signed word. -/
private theorem range_test {w : BitVec 32} (hw : w.toNat < 256) :
    IntOp.andi (IntOp.cmpi .sge w 0#32) (IntOp.cmpi .sle w 255#32) = 1#1 := by
  have h0 : (0#32 : BitVec 32).toNat = 0 := rfl
  have h255 : (255#32 : BitVec 32).toNat = 255 := rfl
  have e1 : IntOp.cmpi .sge w 0#32 = 1#1 := (sge_iff_toNat (a := w) (b := 0#32) (by omega) (by decide)).2 (by omega)
  have e2 : IntOp.cmpi .sle w 255#32 = 1#1 := (sle_iff_toNat (a := w) (b := 255#32) (by omega) (by decide)).2 (by omega)
  rw [e1, e2]; rfl

/-- The moved row number at (r, q, 0) is the assignment at (r, q) when that is a row number of the codebook. -/
private theorem movedIdx_apply (a : IVec S8192x2048 32) (r : Fin 8192) (q : Fin 2048) (z : Fin 1)
    (hw : (a (ix2 r q)).toNat < 256) : movedIdx a (ix3 r q z) = a (ix2 r q) := by
  unfold movedIdx
  refine (broadcastInDim_apply _ _ _ (ix3 r q z) (ix2 r q) ?_).trans ?_
  · intro c
    match c with
    | ⟨0, _⟩ => rfl
    | ⟨1, _⟩ => rfl
  · exact if_neg (not_slt_zero hw)

/-- A left fold by `and` from 1 over words that are all 1 is 1. -/
private theorem foldl_andi_one {ι : Type} (f : ι → BitVec 1) (hf : ∀ n, f n = 1#1) :
    ∀ l : List ι, l.foldl (fun r n => IntOp.andi r (f n)) 1#1 = 1#1
  | [] => rfl
  | n :: l => by
    rw [List.foldl_cons, hf n]
    exact foldl_andi_one f hf l

/-- The range test holds at every position. -/
private theorem okMask_apply (a : IVec S8192x2048 32) (ha : Cert.Lookup.InRange a) (j : S8192x2048.Idx) :
    okMask a j = 1#1 := by
  unfold okMask
  rw [Host.reduce_eq_foldl]
  refine foldl_andi_one _ (fun i => ?_) _
  obtain ⟨p, q, z, rfl⟩ : ∃ p q z, i = ix3 p q z := ⟨i 0, i 1, i 2, eq_ix3 i⟩
  show IntOp.andi (IntOp.cmpi .sge (movedIdx a (ix3 p q z)) 0#32) (IntOp.cmpi .sle (movedIdx a (ix3 p q z)) 255#32) = 1#1
  rw [movedIdx_apply a p q z (ha _)]
  exact range_test (ha _)

/-- The gather read at (r, q, d): component `d` of the codebook row the start index at (r, q, 0) names, read signed and
    clamped into [0, 255]. -/
private theorem gather_apply {α : Type} (x : S256x4.Idx → α) (idx : IVec S8192x2048x1 32)
    (r : Fin 8192) (q : Fin 2048) (d : Fin 4) :
    Host.gather gather_S256x4_S8192x2048x1_S8192x2048x4_2_0_n_n_0_2_14 x idx (ix3 r q d)
      = x (ix2 ⟨min (idx (ix3 r q (0 : Fin 1))).toInt.toNat 255, by omega⟩ d) := by
  unfold Host.gather
  refine congrArg x (funext fun c => Fin.ext ?_)
  match c with
  | ⟨0, _⟩ =>
    show gather_S256x4_S8192x2048x1_S8192x2048x4_2_0_n_n_0_2_14.start (ix3 r q d) idx 0
        + gather_S256x4_S8192x2048x1_S8192x2048x4_2_0_n_n_0_2_14.batchCoord (ix3 r q d) 0
        + gather_S256x4_S8192x2048x1_S8192x2048x4_2_0_n_n_0_2_14.offCoord (ix3 r q d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x4_S8192x2048x1_S8192x2048x4_2_0_n_n_0_2_14.startIndexMap from
      List.mem_singleton.mpr rfl)]
    have hsi : gather_S256x4_S8192x2048x1_S8192x2048x4_2_0_n_n_0_2_14.siIdx (ix3 r q d)
        ⟨List.idxOf (0 : Fin 2) gather_S256x4_S8192x2048x1_S8192x2048x4_2_0_n_n_0_2_14.startIndexMap,
          List.idxOf_lt_length_iff.2 (List.mem_singleton.mpr rfl)⟩ = ix3 r q (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S256x4_S8192x2048x1_S8192x2048x4_2_0_n_n_0_2_14.start (ix3 r q d) idx 1
        + gather_S256x4_S8192x2048x1_S8192x2048x4_2_0_n_n_0_2_14.batchCoord (ix3 r q d) 1
        + gather_S256x4_S8192x2048x1_S8192x2048x4_2_0_n_n_0_2_14.offCoord (ix3 r q d) 1 = d.val
    rw [GatherDims.batchCoord_eq_zero _ _ _ List.not_mem_nil]
    have hs : gather_S256x4_S8192x2048x1_S8192x2048x4_2_0_n_n_0_2_14.start (ix3 r q d) idx 1 = 0 := by
      unfold GatherDims.start
      exact dif_neg (by decide)
    have ho : gather_S256x4_S8192x2048x1_S8192x2048x4_2_0_n_n_0_2_14.offCoord (ix3 r q d) 1 = d.val := by
      unfold GatherDims.offCoord
      rw [dif_pos (by decide)]
      rfl
    rw [hs, ho]
    omega

open Idealize.ShloMosaic.StableHlo.Predicate in
/-- The lookup helper's result at (r, q, d): component `d` of the row the assignment at (r, q) names. -/
private theorem takeTerm_apply (x : FVec Ideal S256x4 .f32) (a : IVec S8192x2048 32) (ha : Cert.Lookup.InRange a)
    (r : Fin 8192) (q : Fin 2048) (d : Fin 4) :
    takeTerm (F := Ideal) x a (ix3 r q d) = x (ix2 (Cert.Lookup.row a r q) d) := by
  have hw : (a (ix2 r q)).toNat < 256 := ha _
  unfold takeTerm
  refine (select_apply _ _ _ _).trans ?_
  rw [broadcastInDim_apply _ _ (okMask a) (ix3 r q d) (ix2 r q) (fun c => by
    match c with
    | ⟨0, _⟩ => rfl
    | ⟨1, _⟩ => rfl), okMask_apply a ha, select_one, gather_apply]
  have e : (⟨min (movedIdx a (ix3 r q (0 : Fin 1))).toInt.toNat 255, by omega⟩ : Fin 256) = Cert.Lookup.row a r q := by
    refine Fin.ext ?_
    rw [Cert.Lookup.row_val_of_inRange ha]
    show min (movedIdx a (ix3 r q (0 : Fin 1))).toInt.toNat 255 = (a (ix2 r q)).toNat
    rw [movedIdx_apply a r q 0 hw, toInt_eq_toNat_of_lt (by omega), Int.toNat_natCast]
    omega
  exact congrArg (fun p => x (ix2 p d)) e

/-- The reference's result at (r, j): component `j % 4` of the row the assignment at (r, j / 4) names. -/
private theorem refTerm_apply (x : FVec Ideal S256x4 .f32) (a : IVec S8192x2048 32) (ha : Cert.Lookup.InRange a)
    (r : Fin 8192) (j : Fin 8192) :
    refTerm (F := Ideal) x a (ix2 r j)
      = x (ix2 (Cert.Lookup.row a r ⟨j.val / 4, by omega⟩) ⟨j.val % 4, Nat.mod_lt _ (by decide)⟩) := by
  unfold refTerm
  refine (shapeCast_apply _ _ (ix2 r j) (ix3 r (⟨j.val / 4, by omega⟩ : Fin 2048) (⟨j.val % 4, Nat.mod_lt _ (by decide)⟩ : Fin 4))
    ?_).trans (takeTerm_apply x a ha _ _ _)
  rw [Shape.rowMajor_val_three, Shape.rowMajor_val_two]
  show (r.val * 2048 + j.val / 4) * 4 + j.val % 4 = r.val * 8192 + j.val
  omega

/-- With the assignments in range the reference's result is the lookup, index by index. -/
theorem refTerm_eq (x : FVec Ideal S256x4 .f32) (a : IVec S8192x2048 32) (ha : Cert.Lookup.InRange a) :
    refTerm (F := Ideal) x a = Cert.Lookup.G x a := by
  funext i
  obtain ⟨r, j, rfl⟩ : ∃ (r : Fin 8192) (j : Fin 8192), i = ix2 r j := ⟨i 0, i 1, eq_ix2 i⟩
  exact refTerm_apply x a ha r j

end Cert.ReferenceIdeal.Hand

end
-- ==== Proof.PreDecode.lean ====
/-
  Reading the precondition: that the printed predicate is all ones says that every component of the codebook is a
  real number and that every assignment is a row number of the codebook.
-/
import proofs.«429566_j53017076302344_3_alg».proof.Pre_finite_inputs
import proofs.«429566_j53017076302344_3_alg».proof.Proof.Spec
import Idealize.ShloMosaic.Lib.ReduceAll
import Idealize.ShloMosaic.Lib.StableHlo.Predicate

noncomputable section

namespace Cert.Lookup

open Idealize.ShloMosaic Idealize.ShloMosaic.ValueIdx

/-- The scalar shape has one index. -/
private instance subsingleton_scalar_idx : Subsingleton Cert.Pre_finite_inputs.S_.Idx :=
  ⟨fun a b => funext fun d => d.elim0⟩

/-- An extended real whose absolute value is below the pattern of +∞ is a real number. -/
private theorem real_of_abs_lt (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  rw [StableHlo.Predicate.ofBool_eq_one_iff, decide_eq_true_eq, max_lt_iff] at h
  induction v using EReal.rec with
  | bot => exact absurd h.2 (by simp)
  | coe r => exact ⟨r, rfl⟩
  | top => exact absurd h.1 (by simp)

/-- A 32-bit word that is at least 0 and below 256 as a signed number is below 256 as an unsigned one. -/
private theorem toNat_lt_of_signed (w : BitVec 32) (h0 : IntOp.cmpi .sge w 0#32 = 1#1)
    (h1 : IntOp.cmpi .slt w 256#32 = 1#1) : w.toNat < 256 := by
  unfold IntOp.cmpi at h0 h1
  rw [StableHlo.Predicate.ofBool_eq_one_iff] at h0 h1
  simp only [BitVec.slt, BitVec.sle, decide_eq_true_eq] at h0 h1
  have h32 := w.isLt
  have e0 : (0#32 : BitVec 32).toInt = 0 := by decide
  have e256 : (256#32 : BitVec 32).toInt = 256 := by decide
  rw [e0] at h0
  rw [e256] at h1
  rw [BitVec.toInt_eq_toNat_cond] at h0 h1
  split at h1 <;> omega

/-- The precondition, read: the codebook is finite and the assignments are in range. -/
theorem pre_decode [Cert.Pre_finite_inputs.Facts] (x : FVec Ideal S256x4 .f32) (a : IVec S8192x2048 32)
    (h : Cert.Pre_finite_inputs.fn (F := Ideal) x a = fun _ => 1#1) : Finite x ∧ InRange a := by
  -- the one element of the scalar result is the conjunction of the two all-reductions
  have e := congrFun h ValueIdx.ix0
  dsimp only [Cert.Pre_finite_inputs.fn] at e
  obtain ⟨e1, e2⟩ := IntOp.andi_eq_one.1 e
  refine ⟨fun i => ?_, fun i => ?_⟩
  · -- every element of the float comparison is one: |x i| is below +∞
    have hi := Host.reduce_andi_all _ _ _ _ _ e1 i
    exact real_of_abs_lt (x i) hi
  · -- every element of the conjunction of the two integer comparisons is one: 0 ≤ a i < 256, signed
    have hi := Host.reduce_andi_all _ _ _ _ _ e2 i
    obtain ⟨g0, g1⟩ := IntOp.andi_eq_one.1 hi
    exact toNat_lt_of_signed (a i) g0 g1

end Cert.Lookup

end
-- ==== Proof.lean ====
/-
  The certificate: a codebook lookup computed by a one-hot matrix product agrees with the reference's gather.

  The kernel program splits the codebook into three pieces — the codebook changed of format, the remainder of that
  change, the remainder of the remainder's — lays them side by side as a twelve-column table, and in its kernel
  multiplies, for sixteen rows of assignments at a time, the one-hot rows of the assignments by the table and adds the
  three groups of four columns. The reference gathers the codebook's rows at the assignments.

  Over the extended reals a change of format is the identity, so the two remainders are differences x − x, zero where
  the codebook is finite; a one-hot row times the table is the table's row, a product with zero being zero; so the
  kernel's entry is the codebook's component plus two zeros. The reference moves a negative row number up by 256 and puts
  the not-a-number pattern where the moved number is outside [0, 255]; with every assignment in [0, 256) nothing moves,
  the test holds everywhere, and the gather reads the named row. Both are the lookup `Cert.Lookup.G`.

  The precondition is read once (`Cert.Lookup.pre_decode`): the codebook is finite and the assignments are in range.
  The three frames do not use it: the kernel never addresses memory by an assignment.
-/
import proofs.«429566_j53017076302344_3_alg».proof.Defs
import proofs.«429566_j53017076302344_3_alg».proof.Proof.Gen.Kernel
import proofs.«429566_j53017076302344_3_alg».proof.Proof.Gen.KernelIdeal
import proofs.«429566_j53017076302344_3_alg».proof.Proof.Gen.ReferenceIdeal
import proofs.«429566_j53017076302344_3_alg».proof.Proof.Gen.Pre_finite_inputs
import proofs.«429566_j53017076302344_3_alg».proof.Proof.KFrame
import proofs.«429566_j53017076302344_3_alg».proof.Proof.KIFrame
import proofs.«429566_j53017076302344_3_alg».proof.Proof.KIValueRun
import proofs.«429566_j53017076302344_3_alg».proof.Proof.RefRun
import proofs.«429566_j53017076302344_3_alg».proof.Proof.RefValue
import proofs.«429566_j53017076302344_3_alg».proof.Proof.PreDecode

noncomputable section

namespace Cert.Proof

open Idealize.ShloMosaic Idealize.SL.Sem

/-- The word-level kernel program runs and leaves both arguments unchanged. -/
theorem frame_p : Cert.frame_Kernel := fun m ρ _ => Cert.Kernel.Frame.frame (F := Bits) m ρ

/-- So does the idealized kernel program. -/
theorem frame_pi : Cert.frame_KernelIdeal := fun m ρ _ => Cert.KernelIdeal.Frame.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing: the idealization is the program's own text read over the extended reals. -/
theorem preserves : Cert.preserves_Kernel_KernelIdeal := trivial

/-- From memories agreeing on the arguments, under the precondition, both idealized programs end at the lookup. -/
theorem algebraic : Cert.algebraic_KernelIdeal_ReferenceIdeal := by
  intro m ρ m' ρ' hpre hagree
  have hd := fun c => Cert.Lookup.pre_decode _ _ (hpre c)
  refine ⟨fun c => Cert.Lookup.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ (fun c => (hd c).1) (fun c => (hd c).2), ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  exact Cert.ReferenceIdeal.Hand.refTerm_eq _ _ (hd c).2

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
